-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg18 : FVec F S2 .f32) (main_v83 : IVec S_ 1) (main_v84 : FVec F S128x2 .f32) (main_cst_32 : FVec F S_ .f32) : IVec S_ 1 :=
  let main_v85 : FVec F S128x2 .f32 := broadcastInDim S128x2 ![] bcast_S_S128x2 main_cst_32
  let main_v86 : IVec S128x2 1 := cmpf .olt main_v84 main_v85
  let main_c_33 : IVec S_ 1 := constantI S_ 1 1#1
  let main_v87 : IVec S_ 1 := (fun x v => Host.reduce IntOp.andi x v reducesTo_S128x2_S_d0_1 h_S_) main_v86 main_c_33
  let main_v88 : IVec S_ 1 := andi main_v83 main_v87
  let main_v89 : FVec F S2 .f32 := Host.absf main_arg18
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  main_v93

def fn_part4 {F : FTy → Type} [FloatOps F] (main_arg14 : FVec F S256 .f32) (main_arg15 : FVec F S256x128 .f32) (main_arg16 : FVec F S128 .f32) (main_arg17 : FVec F S128x2 .f32) (main_arg18 : FVec F S2 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x2 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S768x512 .f32) (main_arg12 : FVec F S512 .f32) (main_arg13 : FVec F S512x256 .f32) (main_arg14 : FVec F S256 .f32) (main_arg15 : FVec F S256x128 .f32) (main_arg16 : FVec F S128 .f32) (main_arg17 : FVec F S128x2 .f32) (main_arg18 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S768x512 .f32 := Host.absf main_arg11
  let main_cst_20 : FVec F S_ .f32 := constant S_ .f32 0x7F800000#32
  let main_v55 : FVec F S768x512 .f32 := broadcastInDim S768x512 ![] bcast_S_S768x512 main_cst_20
  let main_v56 : IVec S768x512 1 := cmpf .olt main_v54 main_v55
  let main_c_21 : IVec S_ 1 := constantI S_ 1 1#1
  let main_v57 : IVec S_ 1 := (fun x v => Host.reduce IntOp.andi x v reducesTo_S768x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x256 .f32 := Host.absf main_arg13
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg14 main_arg15 main_arg16 main_arg17 main_arg18 main_v63 main_v67

def fn_part2 {F : FTy → Type} [FloatOps F] (main_arg7 : FVec F S768x512 .f32) (main_arg8 : FVec F S512 .f32) (main_arg9 : FVec F S512x256 .f32) (main_arg10 : FVec F S256 .f32) (main_arg11 : FVec F S768x512 .f32) (main_arg12 : FVec F S512 .f32) (main_arg13 : FVec F S512x256 .f32) (main_arg14 : FVec F S256 .f32) (main_arg15 : FVec F S256x128 .f32) (main_arg16 : FVec F S128 .f32) (main_arg17 : FVec F S128x2 .f32) (main_arg18 : FVec F S2 .f32) (main_v33 : IVec S_ 1) : IVec S_ 1 :=
  let main_v34 : FVec F S768x512 .f32 := Host.absf main_arg7
  let main_cst_12 : FVec F S_ .f32 := constant S_ .f32 0x7F800000#32
  let main_v35 : FVec F S768x512 .f32 := broadcastInDim S768x512 ![] bcast_S_S768x512 main_cst_12
  let main_v36 : IVec S768x512 1 := cmpf .olt main_v34 main_v35
  let main_c_13 : IVec S_ 1 := constantI S_ 1 1#1
  let main_v37 : IVec S_ 1 := (fun x v => Host.reduce IntOp.andi x v reducesTo_S768x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg9
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x256 .f32) (main_arg6 : FVec F S256 .f32) (main_arg7 : FVec F S768x512 .f32) (main_arg8 : FVec F S512 .f32) (main_arg9 : FVec F S512x256 .f32) (main_arg10 : FVec F S256 .f32) (main_arg11 : FVec F S768x512 .f32) (main_arg12 : FVec F S512 .f32) (main_arg13 : FVec F S512x256 .f32) (main_arg14 : FVec F S256 .f32) (main_arg15 : FVec F S256x128 .f32) (main_arg16 : FVec F S128 .f32) (main_arg17 : FVec F S128x2 .f32) (main_arg18 : FVec F S2 .f32) (main_v13 : IVec S_ 1) (main_v16 : IVec S768x512 1) : IVec S_ 1 :=
  let main_c_5 : IVec S_ 1 := constantI S_ 1 1#1
  let main_v17 : IVec S_ 1 := (fun x v => Host.reduce IntOp.andi x v reducesTo_S768x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x768 .f32) (main_arg1 : FVec F S4096x768 .f32) (main_arg2 : FVec F S4096x768 .f32) (main_arg3 : FVec F S768x512 .f32) (main_arg4 : FVec F S512 .f32) (main_arg5 : FVec F S512x256 .f32) (main_arg6 : FVec F S256 .f32) (main_arg7 : FVec F S768x512 .f32) (main_arg8 : FVec F S512 .f32) (main_arg9 : FVec F S512x256 .f32) (main_arg10 : FVec F S256 .f32) (main_arg11 : FVec F S768x512 .f32) (main_arg12 : FVec F S512 .f32) (main_arg13 : FVec F S512x256 .f32) (main_arg14 : FVec F S256 .f32) (main_arg15 : FVec F S256x128 .f32) (main_arg16 : FVec F S128 .f32) (main_arg17 : FVec F S128x2 .f32) (main_arg18 : FVec F S2 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S4096x768 .f32 := Host.absf main_arg2
  let main_cst_2 : FVec F S_ .f32 := constant S_ .f32 0x7F800000#32
  let main_v10 : FVec F S4096x768 .f32 := broadcastInDim S4096x768 ![] bcast_S_S4096x768 main_cst_2
  let main_v11 : IVec S4096x768 1 := cmpf .olt main_v9 main_v10
  let main_c_3 : IVec S_ 1 := constantI S_ 1 1#1
  let main_v12 : IVec S_ 1 := (fun x v => Host.reduce IntOp.andi x v reducesTo_S4096x768_S_d0_1 h_S_) main_v11 main_c_3
  let main_v13 : IVec S_ 1 := andi main_v8 main_v12
  let main_v14 : FVec F S768x512 .f32 := Host.absf main_arg3
  let main_cst_4 : FVec F S_ .f32 := constant S_ .f32 0x7F800000#32
  let main_v15 : FVec F S768x512 .f32 := broadcastInDim S768x512 ![] bcast_S_S768x512 main_cst_4
  let main_v16 : IVec S768x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x512 : Shape := ⟨2, ![1, 512]⟩
abbrev S1x256 : Shape := ⟨2, ![1, 256]⟩
abbrev S1x128 : Shape := ⟨2, ![1, 128]⟩
abbrev S1x2 : Shape := ⟨2, ![1, 2]⟩
abbrev S4096x2 : Shape := ⟨2, ![4096, 2]⟩
abbrev S1024x768 : Shape := ⟨2, ![1024, 768]⟩
abbrev S1024x2 : Shape := ⟨2, ![1024, 2]⟩
abbrev S3x512x128 : Shape := ⟨3, ![3, 512, 128]⟩
abbrev S3x128 : Shape := ⟨2, ![3, 128]⟩
abbrev S512x128 : Shape := ⟨2, ![512, 128]⟩
abbrev S1x512x128 : Shape := ⟨3, ![1, 512, 128]⟩
abbrev S1024x512 : Shape := ⟨2, ![1024, 512]⟩
abbrev S1024x128 : Shape := ⟨2, ![1024, 128]⟩

abbrev nBuf : Space → Nat
  | .hbm => 28
  | .vmem => 27
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S768x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S768x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S768x512, .f32⟩
  | .hbm, ⟨12, _⟩ => ⟨S512, .f32⟩
  | .hbm, ⟨13, _⟩ => ⟨S512x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128x2, .f32⟩
  | .hbm, ⟨18, _⟩ => ⟨S2, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x128, .f32⟩
  | .hbm, ⟨26, _⟩ => ⟨S1x2, .f32⟩
  | .hbm, ⟨27, _⟩ => ⟨S4096x2, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S768x512, .f32⟩
  | .local _ .vmem, ⟨7, _⟩ => ⟨S768x512, .f32⟩
  | .local _ .vmem, ⟨8, _⟩ => ⟨S768x512, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S256x128, .f32⟩
  | .local _ .vmem, ⟨13, _⟩ => ⟨S128x2, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x128, .f32⟩
  | .local _ .vmem, ⟨21, _⟩ => ⟨S1x2, .f32⟩
  | .local _ .vmem, ⟨22, _⟩ => ⟨S1024x2, .f32⟩
  | .local _ .vmem, ⟨23, _⟩ => ⟨S1024x2, .f32⟩
  | .local _ .vmem, ⟨24, _⟩ => ⟨S3x512x128, .bf16⟩
  | .local _ .vmem, ⟨25, _⟩ => ⟨S128x2, .bf16⟩
  | .local _ .vmem, ⟨26, _⟩ => ⟨S3x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x2 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  shapeCasts_S512_S1x512 : S512.ShapeCasts S1x512
  shapeCasts_S256_S1x256 : S256.ShapeCasts S1x256
  shapeCasts_S128_S1x128 : S128.ShapeCasts S1x128
  shapeCasts_S2_S1x2 : S2.ShapeCasts S1x2
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S3x512x128_S1x512x128_0_0_0 : ∀ a, (![0, 0, 0] : Fin 3 → Nat) a + S1x512x128.size a ≤ S3x512x128.size a
  h_S1x512x128 : 0 < S1x512x128.numel
  shapeCasts_S1x512x128_S512x128 : S1x512x128.ShapeCasts S512x128
  shapeCasts_S512x128_S1x512x128 : S512x128.ShapeCasts S1x512x128
  packedbf16_S3x512x128_S1x512x128_0_0_0 : (Rect.unit (s := S3x512x128) ![0, 0, 0] S1x512x128.size inb_S3x512x128_S1x512x128_0_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x128_S128 : S1x128.ShapeCasts S128
  inb_S3x128_S1x128_0_0 : ∀ a, (![0, 0] : Fin 2 → Nat) a + S1x128.size a ≤ S3x128.size a
  inb_S3x512x128_S1x512x128_1_0_0 : ∀ a, (![1, 0, 0] : Fin 3 → Nat) a + S1x512x128.size a ≤ S3x512x128.size a
  packedbf16_S3x512x128_S1x512x128_1_0_0 : (Rect.unit (s := S3x512x128) ![1, 0, 0] S1x512x128.size inb_S3x512x128_S1x512x128_1_0_0).PackedRows (EltTy.packing .bf16)
  inb_S3x128_S1x128_1_0 : ∀ a, (![1, 0] : Fin 2 → Nat) a + S1x128.size a ≤ S3x128.size a
  inb_S3x512x128_S1x512x128_2_0_0 : ∀ a, (![2, 0, 0] : Fin 3 → Nat) a + S1x512x128.size a ≤ S3x512x128.size a
  packedbf16_S3x512x128_S1x512x128_2_0_0 : (Rect.unit (s := S3x512x128) ![2, 0, 0] S1x512x128.size inb_S3x512x128_S1x512x128_2_0_0).PackedRows (EltTy.packing .bf16)
  inb_S3x128_S1x128_2_0 : ∀ a, (![2, 0] : Fin 2 → Nat) a + S1x128.size a ≤ S3x128.size a
  inb_S128x2_S128x2_0_0 : ∀ a, (![0, 0] : Fin 2 → Nat) a + S128x2.size a ≤ S128x2.size a
  h_S128x2 : 0 < S128x2.numel
  shapeCasts_S128x2_S128x2 : S128x2.ShapeCasts S128x2
  packedbf16_S128x2_S128x2_0_0 : (Rect.unit (s := S128x2) ![0, 0] S128x2.size inb_S128x2_S128x2_0_0).PackedRows (EltTy.packing .bf16)
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1024x768_S1024x768_0_0 : ∀ a, (![0, 0] : Fin 2 → Nat) a + S1024x768.size a ≤ S1024x768.size a
  h_S1024x768 : 0 < S1024x768.numel
  inb_S768x512_S768x512_0_0 : ∀ a, (![0, 0] : Fin 2 → Nat) a + S768x512.size a ≤ S768x512.size a
  h_S768x512 : 0 < S768x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  broadcasts_S1x128_S1024x128 : S1x128.Broadcasts S1024x128
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S512x256_S256x128_S512x128_1_0_0_1_n_n_wf : DotDims.WF S512x256 S256x128 S512x128 [1] [0] [0] [1] [] []
  dot_S1x256_S256x128_S1x128_1_0_0_1_n_n_wf : DotDims.WF S1x256 S256x128 S1x128 [1] [0] [0] [1] [] []
  dot_S1024x768_S768x512_S1024x512_1_0_0_1_n_n_wf : DotDims.WF S1024x768 S768x512 S1024x512 [1] [0] [0] [1] [] []
  dot_S1024x512_S512x128_S1024x128_1_0_0_1_n_n_wf : DotDims.WF S1024x512 S512x128 S1024x128 [1] [0] [0] [1] [] []
  dot_S1024x128_S128x2_S1024x2_1_0_0_1_n_n_wf : DotDims.WF S1024x128 S128x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .f32 = 32 ∨ (Rect.block (s := S4096x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S4096x768.size a
  hwx0_1 : ∀ i : grid0.Coords, EltTy.bits .f32 = 32 ∨ (Rect.block (s := S4096x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S4096x768.size a
  hwx0_2 : ∀ i : grid0.Coords, EltTy.bits .f32 = 32 ∨ (Rect.block (s := S4096x768) S1024x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .f32 = 32 ∨ (Rect.block (s := S768x512) S768x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x512.size a ≤ S768x512.size a
  hwx0_4 : ∀ i : grid0.Coords, EltTy.bits .f32 = 32 ∨ (Rect.block (s := S768x512) S768x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x512.size a ≤ S768x512.size a
  hwx0_5 : ∀ i : grid0.Coords, EltTy.bits .f32 = 32 ∨ (Rect.block (s := S768x512) S768x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x2.size a ≤ S128x2.size a
  hwx0_10 : ∀ i : grid0.Coords, EltTy.bits .f32 = 32 ∨ (Rect.block (s := S128x2) S128x2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x2.size a ≤ S1x2.size a
  hwx0_18 : ∀ i : grid0.Coords, EltTy.bits .f32 = 32 ∨ (Rect.block (s := S1x2) S1x2.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x2.size a ≤ S4096x2.size a
  hwx0_19 : ∀ i : grid0.Coords, EltTy.bits .f32 = 32 ∨ (Rect.block (s := S4096x2) S1024x2.size (cc0_transform_19 i) (hinb0_19 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S768x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S768x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg15) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S128x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v2) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v3) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v4) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v6) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v7) S1x2.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v8) S1024x2.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S4096x512 : Shape := ⟨2, ![4096, 512]⟩
abbrev S1x512 : Shape := ⟨2, ![1, 512]⟩
abbrev S_ : Shape := ⟨0, ![]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩
abbrev S4096x2 : Shape := ⟨2, ![4096, 2]⟩
abbrev S1x2 : Shape := ⟨2, ![1, 2]⟩
abbrev S4096x1x2 : Shape := ⟨3, ![4096, 1, 2]⟩
abbrev S4096x3x2 : Shape := ⟨3, ![4096, 3, 2]⟩

abbrev nBuf : Space → Nat
  | .hbm => 91
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S768x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S768x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S768x512, .f32⟩
  | .hbm, ⟨12, _⟩ => ⟨S512, .f32⟩
  | .hbm, ⟨13, _⟩ => ⟨S512x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128x2, .f32⟩
  | .hbm, ⟨18, _⟩ => ⟨S2, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x256, .f32⟩
  | .hbm, ⟨27, _⟩ => ⟨S1x256, .f32⟩
  | .hbm, ⟨28, _⟩ => ⟨S4096x256, .f32⟩
  | .hbm, ⟨29, _⟩ => ⟨S4096x256, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S4096x512, .f32⟩
  | .hbm, ⟨42, _⟩ => ⟨S1x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x256, .f32⟩
  | .hbm, ⟨49, _⟩ => ⟨S1x256, .f32⟩
  | .hbm, ⟨50, _⟩ => ⟨S4096x256, .f32⟩
  | .hbm, ⟨51, _⟩ => ⟨S4096x256, .f32⟩
  | .hbm, ⟨52, _⟩ => ⟨S4096x128, .f32⟩
  | .hbm, ⟨53, _⟩ => ⟨S1x128, .f32⟩
  | .hbm, ⟨54, _⟩ => ⟨S4096x128, .f32⟩
  | .hbm, ⟨55, _⟩ => ⟨S4096x128, .f32⟩
  | .hbm, ⟨56, _⟩ => ⟨S_, .f32⟩
  | .hbm, ⟨57, _⟩ => ⟨S4096x128, .f32⟩
  | .hbm, ⟨58, _⟩ => ⟨S4096x128, .f32⟩
  | .hbm, ⟨59, _⟩ => ⟨S4096x2, .f32⟩
  | .hbm, ⟨60, _⟩ => ⟨S1x2, .f32⟩
  | .hbm, ⟨61, _⟩ => ⟨S4096x2, .f32⟩
  | .hbm, ⟨62, _⟩ => ⟨S4096x2, .f32⟩
  | .hbm, ⟨63, _⟩ => ⟨S4096x128, .f32⟩
  | .hbm, ⟨64, _⟩ => ⟨S1x128, .f32⟩
  | .hbm, ⟨65, _⟩ => ⟨S4096x128, .f32⟩
  | .hbm, ⟨66, _⟩ => ⟨S4096x128, .f32⟩
  | .hbm, ⟨67, _⟩ => ⟨S_, .f32⟩
  | .hbm, ⟨68, _⟩ => ⟨S4096x128, .f32⟩
  | .hbm, ⟨69, _⟩ => ⟨S4096x128, .f32⟩
  | .hbm, ⟨70, _⟩ => ⟨S4096x2, .f32⟩
  | .hbm, ⟨71, _⟩ => ⟨S1x2, .f32⟩
  | .hbm, ⟨72, _⟩ => ⟨S4096x2, .f32⟩
  | .hbm, ⟨73, _⟩ => ⟨S4096x2, .f32⟩
  | .hbm, ⟨74, _⟩ => ⟨S4096x128, .f32⟩
  | .hbm, ⟨75, _⟩ => ⟨S1x128, .f32⟩
  | .hbm, ⟨76, _⟩ => ⟨S4096x128, .f32⟩
  | .hbm, ⟨77, _⟩ => ⟨S4096x128, .f32⟩
  | .hbm, ⟨78, _⟩ => ⟨S_, .f32⟩
  | .hbm, ⟨79, _⟩ => ⟨S4096x128, .f32⟩
  | .hbm, ⟨80, _⟩ => ⟨S4096x128, .f32⟩
  | .hbm, ⟨81, _⟩ => ⟨S4096x2, .f32⟩
  | .hbm, ⟨82, _⟩ => ⟨S1x2, .f32⟩
  | .hbm, ⟨83, _⟩ => ⟨S4096x2, .f32⟩
  | .hbm, ⟨84, _⟩ => ⟨S4096x2, .f32⟩
  | .hbm, ⟨85, _⟩ => ⟨S4096x1x2, .f32⟩
  | .hbm, ⟨86, _⟩ => ⟨S4096x1x2, .f32⟩
  | .hbm, ⟨87, _⟩ => ⟨S4096x1x2, .f32⟩
  | .hbm, ⟨88, _⟩ => ⟨S4096x3x2, .f32⟩
  | .hbm, ⟨89, _⟩ => ⟨S_, .f32⟩
  | .hbm, ⟨90, _⟩ => ⟨S4096x2, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_cst : Ref sig .tc := ⟨.hbm, 34, rfl⟩
abbrev main_call1_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call2_cst : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call3_cst : Ref sig .tc := ⟨.hbm, 56, rfl⟩
abbrev main_call3_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call4_cst : Ref sig .tc := ⟨.hbm, 67, rfl⟩
abbrev main_call4_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call5_cst : Ref sig .tc := ⟨.hbm, 78, rfl⟩
abbrev main_call5_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst : Ref sig .tc := ⟨.hbm, 89, rfl⟩
abbrev main_v58 : Ref sig .tc := ⟨.hbm, 90, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  bcast_S4096x2_S4096x1x2_0_2 : S4096x2.BroadcastsInDim S4096x1x2 (![0, 2] : Fin 2 → Fin S4096x1x2.rank)
  concatenates_S4096x1x2_S4096x1x2_S4096x1x2_S4096x3x2_d1 : Shape.Concatenates [S4096x1x2, S4096x1x2, S4096x1x2] S4096x3x2 1
  reducesTo_S4096x3x2_S4096x2_d1 : S4096x3x2.ReducesTo [1] S4096x2
  h_S_ : 0 < S_.numel
  dot_S4096x768_S768x512_S4096x512_1_0_0_1_n_n_wf : DotDims.WF S4096x768 S768x512 S4096x512 [1] [0] [0] [1] [] []
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []
  dot_S4096x128_S128x2_S4096x2_1_0_0_1_n_n_wf : DotDims.WF S4096x128 S128x2 S4096x2 [1] [0] [0] [1] [] []

variable [Facts₀]

def dot_S4096x768_S768x512_S4096x512_1_0_0_1_n_n : DotDims S4096x768 S768x512 S4096x512 where
  lhsContracting := [1]
  rhsContracting := [0]
  lhsNonContracting := [0]
  rhsNonContracting := [1]
  lhsBatch := []
  rhsBatch := []
  wf := dot_S4096x768_S768x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

class Facts : Prop extends Facts₀ where

variable [Facts]
-- ==== Proof.Pieces.lean ====
/-
  What one grid point's body leaves in its buffers, as values.

  At the first grid point the body fills three scratch buffers — the three folded weight matrices, slab by slab; the last
  classifier matrix; the three folded bias rows — and then, like every later point, computes the block of results
  from its three blocks of inputs, the first layers, and what the scratch buffers hold. A later point stores nothing
  into the scratch. So the block of results is ONE function of the input blocks and the scratch contents at both
  kinds of point; at the first point the scratch contents it reads are the ones it has just stored.
-/
import proofs.«167844_g13408887898444_cont_sun_m_1282_25_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

theorem hz2 : (![0, 0] : Fin 2 → Nat) = fun _ => 0 := funext fun a => by fin_cases a <;> rfl

/-- Slab `i` of the folded-weight scratch: one `[1, 512, 128]` box at offset `(i, 0, 0)`. -/
abbrev slab0 : Rect S3x512x128 := Rect.unit ![0, 0, 0] S1x512x128.size inb_S3x512x128_S1x512x128_0_0_0
abbrev slab1 : Rect S3x512x128 := Rect.unit ![1, 0, 0] S1x512x128.size inb_S3x512x128_S1x512x128_1_0_0
abbrev slab2 : Rect S3x512x128 := Rect.unit ![2, 0, 0] S1x512x128.size inb_S3x512x128_S1x512x128_2_0_0
/-- Row `i` of the folded-bias scratch: one `[1, 128]` box at offset `(i, 0)`. -/
abbrev brow0 : Rect S3x128 := Rect.unit ![0, 0] S1x128.size inb_S3x128_S1x128_0_0
abbrev brow1 : Rect S3x128 := Rect.unit ![1, 0] S1x128.size inb_S3x128_S1x128_1_0
abbrev brow2 : Rect S3x128 := Rect.unit ![2, 0] S1x128.size inb_S3x128_S1x128_2_0

/-- The folded weights as the first point leaves them: slab `i` holds `W2ᵢ · Wc1`. -/
def foldW (x6 x7 x8 : Vec F S512x256 .f32) (x9 : Vec F S256x128 .f32) : Vec F S3x512x128 .bf16 :=
  View.canon [⟨slab2, k0_pay7 x9 x8⟩, ⟨slab1, k0_pay5 x9 x7⟩, ⟨slab0, k0_pay3 x9 x6⟩]

/-- The folded biases as the first point leaves them: row `i` holds `b2ᵢ · Wc1 + bc1`. -/
def foldB (x9 : Vec F S256x128 .f32) (x14 x15 x16 : Vec F S1x256 .f32) (x17 : Vec F S1x128 .f32) : Vec F S3x128 .f32 :=
  View.canon [⟨brow2, k0_pay8 x9 (k0_pay2 x17) x16⟩, ⟨brow1, k0_pay6 x9 x17 x15⟩, ⟨brow0, k0_pay4 x9 x17 x14⟩]

/-- The block of results from the input blocks, the first layers, the last bias and the scratch contents. -/
def outBlock (x0 x1 x2 : Vec F S1024x768 .f32) (x3 x4 x5 : Vec F S768x512 .f32) (x11 x12 x13 : Vec F S1x512 .f32) (x18 : Vec F S1x2 .f32)
    (s0 : Vec F S3x512x128 .bf16) (s1 : Vec F S128x2 .bf16) (s2 : Vec F S3x128 .f32) : Vec F S1024x2 .f32 :=
  k0_pay1 s1 (k0_pay10 x18)
    (k0_pay12 s1 (k0_pay10 x18) (k0_pay11 s1 x18 x0 x3 x11 (View.ld s0 slab0) (View.ld s2 brow0)) x1 x4 x12 (View.ld s0 slab1) (View.ld s2 brow1))
    (k0_pay13 x2 x5 x13 (View.ld s0 slab2)) (View.ld s2 brow2)

/-- The last classifier matrix, stored whole by the first point. -/
theorem sc1_A (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S1024x768 .f32) (harg3 : arg3.IsWhole) (arg4 : Memref sig .tc .vmem S768x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S256x128 .f32) (harg10 : arg10.IsWhole) (arg11 : Memref sig .tc .vmem S128x2 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x2 .f32) (harg19 : arg19.IsWhole) (arg20 : Memref sig .tc .vmem S1024x2 .f32) (harg20 : arg20.IsWhole) (arg21 : Memref sig .tc .vmem S3x512x128 .bf16) (harg21 : arg21.IsWhole) (arg22 : Memref sig .tc .vmem S128x2 .bf16) (harg22 : arg22.IsWhole) (arg23 : Memref sig .tc .vmem S3x128 .f32) (harg23 : arg23.IsWhole) (hc0 : cond0_0 i)
    (x0 : Vec F S1024x768 .f32) (x1 : Vec F S1024x768 .f32) (x2 : Vec F S1024x768 .f32) (x3 : Vec F S768x512 .f32) (x4 : Vec F S768x512 .f32) (x5 : Vec F S768x512 .f32) (x6 : Vec F S512x256 .f32) (x7 : Vec F S512x256 .f32) (x8 : Vec F S512x256 .f32) (x9 : Vec F S256x128 .f32) (x10 : Vec F S128x2 .f32) (x11 : Vec F S1x512 .f32) (x12 : Vec F S1x512 .f32) (x13 : Vec F S1x512 .f32) (x14 : Vec F S1x256 .f32) (x15 : Vec F S1x256 .f32) (x16 : Vec F S1x256 .f32) (x17 : Vec F S1x128 .f32) (x18 : Vec F S1x2 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 = k0_pay9 x10 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18)]
  unfold kernelRun0_A
  dsimp only
  sl_unfold_words
  rw [View.canon_unit_zero hz2]
  simp only [View.readAt_eq_ld, harg11.read_unread, View.ld_unit_zero (S := S128x2) hz2]

/-- The folded weights the first point leaves. -/
theorem sc0_A (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S1024x768 .f32) (harg3 : arg3.IsWhole) (arg4 : Memref sig .tc .vmem S768x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S256x128 .f32) (harg10 : arg10.IsWhole) (arg11 : Memref sig .tc .vmem S128x2 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x2 .f32) (harg19 : arg19.IsWhole) (arg20 : Memref sig .tc .vmem S1024x2 .f32) (harg20 : arg20.IsWhole) (arg21 : Memref sig .tc .vmem S3x512x128 .bf16) (harg21 : arg21.IsWhole) (arg22 : Memref sig .tc .vmem S128x2 .bf16) (harg22 : arg22.IsWhole) (arg23 : Memref sig .tc .vmem S3x128 .f32) (harg23 : arg23.IsWhole) (hc0 : cond0_0 i)
    (x0 : Vec F S1024x768 .f32) (x1 : Vec F S1024x768 .f32) (x2 : Vec F S1024x768 .f32) (x3 : Vec F S768x512 .f32) (x4 : Vec F S768x512 .f32) (x5 : Vec F S768x512 .f32) (x6 : Vec F S512x256 .f32) (x7 : Vec F S512x256 .f32) (x8 : Vec F S512x256 .f32) (x9 : Vec F S256x128 .f32) (x10 : Vec F S128x2 .f32) (x11 : Vec F S1x512 .f32) (x12 : Vec F S1x512 .f32) (x13 : Vec F S1x512 .f32) (x14 : Vec F S1x256 .f32) (x15 : Vec F S1x256 .f32) (x16 : Vec F S1x256 .f32) (x17 : Vec F S1x128 .f32) (x18 : Vec F S1x2 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 = foldW x6 x7 x8 x9 := by
  unfold sout0_A_0 foldW
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S256x128) hz2, View.ld_unit_zero (S := S512x256) hz2]

/-- The folded biases the first point leaves. -/
theorem sc2_A (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S1024x768 .f32) (harg3 : arg3.IsWhole) (arg4 : Memref sig .tc .vmem S768x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S256x128 .f32) (harg10 : arg10.IsWhole) (arg11 : Memref sig .tc .vmem S128x2 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x2 .f32) (harg19 : arg19.IsWhole) (arg20 : Memref sig .tc .vmem S1024x2 .f32) (harg20 : arg20.IsWhole) (arg21 : Memref sig .tc .vmem S3x512x128 .bf16) (harg21 : arg21.IsWhole) (arg22 : Memref sig .tc .vmem S128x2 .bf16) (harg22 : arg22.IsWhole) (arg23 : Memref sig .tc .vmem S3x128 .f32) (harg23 : arg23.IsWhole) (hc0 : cond0_0 i)
    (x0 : Vec F S1024x768 .f32) (x1 : Vec F S1024x768 .f32) (x2 : Vec F S1024x768 .f32) (x3 : Vec F S768x512 .f32) (x4 : Vec F S768x512 .f32) (x5 : Vec F S768x512 .f32) (x6 : Vec F S512x256 .f32) (x7 : Vec F S512x256 .f32) (x8 : Vec F S512x256 .f32) (x9 : Vec F S256x128 .f32) (x10 : Vec F S128x2 .f32) (x11 : Vec F S1x512 .f32) (x12 : Vec F S1x512 .f32) (x13 : Vec F S1x512 .f32) (x14 : Vec F S1x256 .f32) (x15 : Vec F S1x256 .f32) (x16 : Vec F S1x256 .f32) (x17 : Vec F S1x128 .f32) (x18 : Vec F S1x2 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 = foldB x9 x14 x15 x16 x17 := by
  unfold sout0_A_2 foldB
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S256x128) hz2, View.ld_unit_zero (S := S1x256) hz2, View.ld_unit_zero (S := S1x128) hz2]

/-- A later point's block of results: the one function, of the scratch contents the point before left. -/
theorem out_B (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S1024x768 .f32) (harg3 : arg3.IsWhole) (arg4 : Memref sig .tc .vmem S768x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S256x128 .f32) (harg10 : arg10.IsWhole) (arg11 : Memref sig .tc .vmem S128x2 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x2 .f32) (harg19 : arg19.IsWhole) (arg20 : Memref sig .tc .vmem S1024x2 .f32) (harg20 : arg20.IsWhole) (arg21 : Memref sig .tc .vmem S3x512x128 .bf16) (harg21 : arg21.IsWhole) (arg22 : Memref sig .tc .vmem S128x2 .bf16) (harg22 : arg22.IsWhole) (arg23 : Memref sig .tc .vmem S3x128 .f32) (harg23 : arg23.IsWhole) (hc0 : ¬cond0_0 i)
    (x0 : Vec F S1024x768 .f32) (x1 : Vec F S1024x768 .f32) (x2 : Vec F S1024x768 .f32) (x3 : Vec F S768x512 .f32) (x4 : Vec F S768x512 .f32) (x5 : Vec F S768x512 .f32) (x6 : Vec F S512x256 .f32) (x7 : Vec F S512x256 .f32) (x8 : Vec F S512x256 .f32) (x9 : Vec F S256x128 .f32) (x10 : Vec F S128x2 .f32) (x11 : Vec F S1x512 .f32) (x12 : Vec F S1x512 .f32) (x13 : Vec F S1x512 .f32) (x14 : Vec F S1x256 .f32) (x15 : Vec F S1x256 .f32) (x16 : Vec F S1x256 .f32) (x17 : Vec F S1x128 .f32) (x18 : Vec F S1x2 .f32) (xs0 : Vec F S3x512x128 .bf16) (xs1 : Vec F S128x2 .bf16) (xs2 : Vec F S3x128 .f32) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 xs0 xs1 xs2 = outBlock x0 x1 x2 x3 x4 x5 x11 x12 x13 x18 xs0 xs1 xs2 := by
  unfold out0_B_19 outBlock
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 xs0 xs1 xs2)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S128x2) hz2, View.ld_unit_zero (S := S1x2) hz2,
    View.ld_unit_zero (S := S1024x768) hz2, View.ld_unit_zero (S := S768x512) hz2, View.ld_unit_zero (S := S1x512) hz2]

/-- The first point's block of results: the same function, of the scratch contents it has just stored. -/
theorem out_A (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S1024x768 .f32) (harg3 : arg3.IsWhole) (arg4 : Memref sig .tc .vmem S768x512 .f32) (harg4 : arg4.IsWhole) (arg5 : Memref sig .tc .vmem S768x512 .f32) (harg5 : arg5.IsWhole) (arg6 : Memref sig .tc .vmem S768x512 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S256x128 .f32) (harg10 : arg10.IsWhole) (arg11 : Memref sig .tc .vmem S128x2 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x2 .f32) (harg19 : arg19.IsWhole) (arg20 : Memref sig .tc .vmem S1024x2 .f32) (harg20 : arg20.IsWhole) (arg21 : Memref sig .tc .vmem S3x512x128 .bf16) (harg21 : arg21.IsWhole) (arg22 : Memref sig .tc .vmem S128x2 .bf16) (harg22 : arg22.IsWhole) (arg23 : Memref sig .tc .vmem S3x128 .f32) (harg23 : arg23.IsWhole) (hc0 : cond0_0 i)
    (x0 : Vec F S1024x768 .f32) (x1 : Vec F S1024x768 .f32) (x2 : Vec F S1024x768 .f32) (x3 : Vec F S768x512 .f32) (x4 : Vec F S768x512 .f32) (x5 : Vec F S768x512 .f32) (x6 : Vec F S512x256 .f32) (x7 : Vec F S512x256 .f32) (x8 : Vec F S512x256 .f32) (x9 : Vec F S256x128 .f32) (x10 : Vec F S128x2 .f32) (x11 : Vec F S1x512 .f32) (x12 : Vec F S1x512 .f32) (x13 : Vec F S1x512 .f32) (x14 : Vec F S1x256 .f32) (x15 : Vec F S1x256 .f32) (x16 : Vec F S1x256 .f32) (x17 : Vec F S1x128 .f32) (x18 : Vec F S1x2 .f32) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18
      = outBlock x0 x1 x2 x3 x4 x5 x11 x12 x13 x18 (foldW x6 x7 x8 x9) (k0_pay9 x10) (foldB x9 x14 x15 x16 x17) := by
  unfold out0_A_19 outBlock foldW foldB
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18)]
  unfold kernelRun0_A
  dsimp only
  sl_unfold_words
  rw [View.canon_unit_zero hz2]
  simp only [View.readCov_unit_zero (S := S128x2) _ hz2, View.readCov_eq_canon', View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S128x2) hz2, View.ld_unit_zero (S := S1x2) hz2,
    View.ld_unit_zero (S := S1024x768) hz2, View.ld_unit_zero (S := S768x512) hz2, View.ld_unit_zero (S := S1x512) hz2,
    View.ld_unit_zero (S := S256x128) hz2, View.ld_unit_zero (S := S512x256) hz2, View.ld_unit_zero (S := S1x256) hz2, View.ld_unit_zero (S := S1x128) hz2]

end Cert.KernelIdeal.Pieces

end
-- ==== Proof.PointVal.lean ====
/-
  The kernel, point by point.

  The grid has four points. The first stores the three scratch buffers; every later point leaves them as it found them.
  So after every point they hold what the first point stored — a function of the weight blocks only — and the block of
  results a point leaves is one function of that point's input blocks and those scratch contents.
-/
import proofs.«167844_g13408887898444_cont_sun_m_1282_25_alg».proof.Proof.Pieces

set_option maxRecDepth 16384

noncomputable section

namespace Cert.KernelIdeal.PointVal

open Idealize.ShloMosaic Idealize.ShloMosaic.TcCoe Idealize.SL.Sem Cert.KernelIdeal Cert.KernelIdeal.Gen Cert.KernelIdeal.Pieces

variable {F : FTy → Type} [FloatOps F]
variable (m : (ℓ : Loc nD τ sig) → Buf (Elt F) ℓ)

/-- The first grid point. -/
def t0 : Fin cfg0.N := ⟨0, by rw [show cfg0.N = 4 from N_0]; decide⟩

/-- The folded weights, from the weight blocks of the first point. -/
def scrW (c : Dev nD) : Vec F S3x512x128 .bf16 := foldW (iblk m c 6 t0) (iblk m c 7 t0) (iblk m c 8 t0) (iblk m c 9 t0)
/-- The stored last classifier matrix. -/
def scrC (c : Dev nD) : Vec F S128x2 .bf16 := k0_pay9 (iblk m c 10 t0)
/-- The folded biases. -/
def scrB (c : Dev nD) : Vec F S3x128 .f32 := foldB (iblk m c 9 t0) (iblk m c 14 t0) (iblk m c 15 t0) (iblk m c 16 t0) (iblk m c 17 t0)

/-- After EVERY point the three scratch buffers hold what the first point stored: the first point stores them, a later
    point leaves them as it found them. By induction on the point. -/
theorem scratch_eq (c : Dev nD) : ∀ (n : ℕ) (h : n < cfg0.N),
    (outsAt0 m c n h).2.1 = scrW m c ∧ (outsAt0 m c n h).2.2.1 = scrC m c ∧ (outsAt0 m c n h).2.2.2 = scrB m c
  | 0, h => by
    have e := outsAt0_A m c ⟨0, h⟩ rfl
    refine ⟨?_, ?_, ?_⟩
    · rw [e]; dsimp only; exact sc0_A ..
    · rw [e]; dsimp only; exact sc1_A ..
    · rw [e]; dsimp only; exact sc2_A ..
  | n + 1, h => by
    have hN : cfg0.N = 4 := N_0
    have hB : ¬(⟨n + 1, h⟩ : Fin cfg0.N).val % 4 = 0 := by dsimp only; omega
    have e := outsAt0_B m c ⟨n + 1, h⟩ hB
    have ih := scratch_eq c n (Nat.lt_of_succ_lt h)
    refine ⟨?_, ?_, ?_⟩
    · rw [e]; dsimp only; unfold sout0_B_0; exact ih.1
    · rw [e]; dsimp only; unfold sout0_B_1; exact ih.2.1
    · rw [e]; dsimp only; unfold sout0_B_2; exact ih.2.2

/-- After point `t` the output's staging buffer holds the one function of the point's input blocks and the scratch
    contents the first point stored. -/
theorem out_eq (c : Dev nD) (t : Fin cfg0.N) :
    (outsAt0 m c t.val t.isLt).1
      = outBlock (iblk m c 0 t) (iblk m c 1 t) (iblk m c 2 t) (iblk m c 3 t) (iblk m c 4 t) (iblk m c 5 t) (iblk m c 11 t) (iblk m c 12 t)
          (iblk m c 13 t) (iblk m c 18 t) (scrW m c) (scrC m c) (scrB m c) := by
  have hN : cfg0.N = 4 := N_0
  by_cases h0 : t.val % 4 = 0
  · obtain rfl : t = t0 := Fin.ext (by have := t.isLt; show t.val = 0; omega)
    rw [outsAt0_A m c t0 h0]; dsimp only
    exact out_A ..
  · have hpos : t.val - 1 < cfg0.N := Nat.lt_of_le_of_lt (Nat.sub_le _ _) t.isLt
    have ih := scratch_eq m c (t.val - 1) hpos
    rw [outsAt0_B m c t h0]; dsimp only
    refine (out_B ..).trans ?_
    rw [ih.1, ih.2.1, ih.2.2]

end Cert.KernelIdeal.PointVal

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Payloads.lean ====
/-
  The kernel's arithmetic, read at an index over the extended reals.

  Each store of the body writes a pure function of the values loaded before it. Here those functions are read entry by
  entry at the ideal instance, where a change of float format is the identity, a matrix product into a zero accumulator
  is the plain sum of products over the contracted axis, a row vector broadcast down the rows is that row, and the
  zero pattern is the number zero. A branch of the model is three such products with a rectifier after the first two.
-/
import proofs.«167844_g13408887898444_cont_sun_m_1282_25_alg».proof.Proof.Gen.KernelIdeal.Skeleton
import proofs.«167844_g13408887898444_cont_sun_m_1282_25_alg».proof.Proof.LibDot2
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## The five matrix products, each into the zero accumulator, at an entry -/

/-- `[512, 256] · [256, 128]` at `(p, j)`: the sum over the 256 contracted coordinates. -/
theorem mm_fold {φ₁ φ₂ : FTy} (l : FVec Ideal S512x256 φ₁) (r : FVec Ideal S256x128 φ₂) (p : Fin 512) (j : Fin 128) :
    matmul dot_S512x256_S256x128_S512x128_1_0_0_1_n_n none l r (constant (F := Ideal) S512x128 .f32 0x00000000#32) (ix2 p j)
      = ∑ a : Fin 256, l (ix2 p a) * r (ix2 a j) :=
  Cert.Lib.Dot2.matmul_zero_ix2 dot_S512x256_S256x128_S512x128_1_0_0_1_n_n none rfl rfl (fun _ _ => rfl) (fun _ _ => rfl)
    (fun _ _ => rfl) (fun _ _ => rfl) l r p j

/-- `[1, 256] · [256, 128]` at `(p, j)`: the sum over the 256 contracted coordinates. -/
theorem mm_row {φ₁ φ₂ : FTy} (l : FVec Ideal S1x256 φ₁) (r : FVec Ideal S256x128 φ₂) (p : Fin 1) (j : Fin 128) :
    matmul dot_S1x256_S256x128_S1x128_1_0_0_1_n_n none l r (constant (F := Ideal) S1x128 .f32 0x00000000#32) (ix2 p j)
      = ∑ a : Fin 256, l (ix2 p a) * r (ix2 a j) :=
  Cert.Lib.Dot2.matmul_zero_ix2 dot_S1x256_S256x128_S1x128_1_0_0_1_n_n none rfl rfl (fun _ _ => rfl) (fun _ _ => rfl)
    (fun _ _ => rfl) (fun _ _ => rfl) l r p j

/-- `[1024, 768] · [768, 512]` at `(p, j)`: the sum over the 768 contracted coordinates. -/
theorem mm_first {φ₁ φ₂ : FTy} (l : FVec Ideal S1024x768 φ₁) (r : FVec Ideal S768x512 φ₂) (p : Fin 1024) (j : Fin 512) :
    matmul dot_S1024x768_S768x512_S1024x512_1_0_0_1_n_n none l r (constant (F := Ideal) S1024x512 .f32 0x00000000#32) (ix2 p j)
      = ∑ a : Fin 768, l (ix2 p a) * r (ix2 a j) :=
  Cert.Lib.Dot2.matmul_zero_ix2 dot_S1024x768_S768x512_S1024x512_1_0_0_1_n_n none rfl rfl (fun _ _ => rfl) (fun _ _ => rfl)
    (fun _ _ => rfl) (fun _ _ => rfl) l r p j

/-- `[1024, 512] · [512, 128]` at `(p, j)`: the sum over the 512 contracted coordinates. -/
theorem mm_second {φ₁ φ₂ : FTy} (l : FVec Ideal S1024x512 φ₁) (r : FVec Ideal S512x128 φ₂) (p : Fin 1024) (j : Fin 128) :
    matmul dot_S1024x512_S512x128_S1024x128_1_0_0_1_n_n none l r (constant (F := Ideal) S1024x128 .f32 0x00000000#32) (ix2 p j)
      = ∑ a : Fin 512, l (ix2 p a) * r (ix2 a j) :=
  Cert.Lib.Dot2.matmul_zero_ix2 dot_S1024x512_S512x128_S1024x128_1_0_0_1_n_n none rfl rfl (fun _ _ => rfl) (fun _ _ => rfl)
    (fun _ _ => rfl) (fun _ _ => rfl) l r p j

/-- `[1024, 128] · [128, 2]` at `(p, j)`: the sum over the 128 contracted coordinates. -/
theorem mm_last {φ₁ φ₂ : FTy} (l : FVec Ideal S1024x128 φ₁) (r : FVec Ideal S128x2 φ₂) (p : Fin 1024) (j : Fin 2) :
    matmul dot_S1024x128_S128x2_S1024x2_1_0_0_1_n_n none l r (constant (F := Ideal) S1024x2 .f32 0x00000000#32) (ix2 p j)
      = ∑ a : Fin 128, l (ix2 p a) * r (ix2 a j) :=
  Cert.Lib.Dot2.matmul_zero_ix2 dot_S1024x128_S128x2_S1024x2_1_0_0_1_n_n none rfl rfl (fun _ _ => rfl) (fun _ _ => rfl)
    (fun _ _ => rfl) (fun _ _ => rfl) l r p j

/-- The scalar zero pattern is the number zero. -/
theorem zero_f32 : Scalar.ofBits (F := Ideal) .f32 0x00000000#32 = (0 : EReal) := Ideal.ofBits_zero_f32

/-! ## The folded weights and biases the first grid point stores -/

/-- The folded weight of the first branch: `W2 · Wc1`, as one slab. -/
theorem foldW0_apply (wc1 : FVec Ideal S256x128 .f32) (w2 : FVec Ideal S512x256 .f32) (u : Fin 1) (j : Fin 512) (l : Fin 128) :
    k0_pay3 (F := Ideal) wc1 w2 (ix3 u j l) = ∑ p : Fin 256, w2 (ix2 j p) * wc1 (ix2 p l) := by
  unfold k0_pay3
  simp only [shapeCast_ab_1ab_apply, truncf_apply, mm_fold]

/-- The folded weight of the second branch. -/
theorem foldW1_apply (wc1 : FVec Ideal S256x128 .f32) (w2 : FVec Ideal S512x256 .f32) (u : Fin 1) (j : Fin 512) (l : Fin 128) :
    k0_pay5 (F := Ideal) wc1 w2 (ix3 u j l) = ∑ p : Fin 256, w2 (ix2 j p) * wc1 (ix2 p l) := by
  unfold k0_pay5
  simp only [shapeCast_ab_1ab_apply, truncf_apply, mm_fold]

/-- The folded weight of the third branch. -/
theorem foldW2_apply (wc1 : FVec Ideal S256x128 .f32) (w2 : FVec Ideal S512x256 .f32) (u : Fin 1) (j : Fin 512) (l : Fin 128) :
    k0_pay7 (F := Ideal) wc1 w2 (ix3 u j l) = ∑ p : Fin 256, w2 (ix2 j p) * wc1 (ix2 p l) := by
  unfold k0_pay7
  simp only [shapeCast_ab_1ab_apply, truncf_apply, mm_fold]

/-- The folded bias of the first branch: `b2 · Wc1 + bc1`, as one row. -/
theorem foldB0_apply (wc1 : FVec Ideal S256x128 .f32) (bc1 : FVec Ideal S1x128 .f32) (b2 : FVec Ideal S1x256 .f32) (u : Fin 1) (l : Fin 128) :
    k0_pay4 (F := Ideal) wc1 bc1 b2 (ix2 u l) = ∑ p : Fin 256, b2 (ix2 (0 : Fin 1) p) * wc1 (ix2 p l) + bc1 (ix2 (0 : Fin 1) l) := by
  unfold k0_pay4 k0_pay2
  simp only [shapeCast_a_1a_apply, shapeCast_1a_a_apply, addf_apply, mm_row, shapeCast_self]

/-- The folded bias of the second branch. -/
theorem foldB1_apply (wc1 : FVec Ideal S256x128 .f32) (bc1 : FVec Ideal S1x128 .f32) (b2 : FVec Ideal S1x256 .f32) (u : Fin 1) (l : Fin 128) :
    k0_pay6 (F := Ideal) wc1 bc1 b2 (ix2 u l) = ∑ p : Fin 256, b2 (ix2 (0 : Fin 1) p) * wc1 (ix2 p l) + bc1 (ix2 (0 : Fin 1) l) := by
  unfold k0_pay6 k0_pay2
  simp only [shapeCast_a_1a_apply, shapeCast_1a_a_apply, addf_apply, mm_row, shapeCast_self]

/-- The folded bias of the third branch (its classifier bias arrives already passed through the identity cast). -/
theorem foldB2_apply (wc1 : FVec Ideal S256x128 .f32) (bc1 : FVec Ideal S1x128 .f32) (b2 : FVec Ideal S1x256 .f32) (u : Fin 1) (l : Fin 128) :
    k0_pay8 (F := Ideal) wc1 bc1 b2 (ix2 u l) = ∑ p : Fin 256, b2 (ix2 (0 : Fin 1) p) * wc1 (ix2 p l) + bc1 (ix2 (0 : Fin 1) l) := by
  unfold k0_pay8
  simp only [shapeCast_a_1a_apply, shapeCast_1a_a_apply, addf_apply, mm_row, shapeCast_self]

/-- The classifier's identity cast of a row. -/
theorem cast_row (bc1 : FVec Ideal S1x128 .f32) : k0_pay2 (F := Ideal) bc1 = bc1 := by
  unfold k0_pay2; exact shapeCast_self _ _

/-- The last classifier matrix is stored as it is (a change of float format is the identity). -/
theorem storeWc2_apply (wc2 : FVec Ideal S128x2 .f32) (i : S128x2.Idx) : k0_pay9 (F := Ideal) wc2 i = wc2 i := by
  unfold k0_pay9
  rw [shapeCast_self]; rfl

/-- The identity cast of the last bias row. -/
theorem cast_bc2 (bc2 : FVec Ideal S1x2 .f32) : k0_pay10 (F := Ideal) bc2 = bc2 := by
  unfold k0_pay10; exact shapeCast_self _ _

/-! ## A branch, and the three branches' maximum -/

/-- One branch's logit at row `y` and class `c`, from the block of inputs, the first layer, the folded second layer
    (one slab `w` of weights, one row `b` of biases) and the last layer. -/
def branch (x : FVec Ideal S1024x768 .f32) (w1 : FVec Ideal S768x512 .f32) (b1 : FVec Ideal S1x512 .f32)
    (w : FVec Ideal S1x512x128 .bf16) (b : FVec Ideal S1x128 .f32) (wc2 : FVec Ideal S128x2 .bf16) (bc2 : FVec Ideal S1x2 .f32)
    (y : Fin 1024) (c : Fin 2) : EReal :=
  ∑ l : Fin 128, max (∑ j : Fin 512, max (∑ k : Fin 768, x (ix2 y k) * w1 (ix2 k j) + b1 (ix2 (0 : Fin 1) j)) 0 * w (ix3 (0 : Fin 1) j l)
      + b (ix2 (0 : Fin 1) l)) 0 * wc2 (ix2 l c) + bc2 (ix2 (0 : Fin 1) c)

/-- The first branch's logit. -/
theorem logit0_apply (wc2 : FVec Ideal S128x2 .bf16) (bc2 : FVec Ideal S1x2 .f32) (x : FVec Ideal S1024x768 .f32) (w1 : FVec Ideal S768x512 .f32)
    (b1 : FVec Ideal S1x512 .f32) (w : FVec Ideal S1x512x128 .bf16) (b : FVec Ideal S1x128 .f32) (y : Fin 1024) (c : Fin 2) :
    k0_pay11 (F := Ideal) wc2 bc2 x w1 b1 w b (ix2 y c) = branch x w1 b1 w b wc2 bc2 y c := by
  unfold k0_pay11 k0_pay10 branch
  simp only [addf_apply, mm_last, truncf_apply, maximumf_apply, mm_second, mm_first, broadcast_apply,
    broadcastTo_1b_ab_apply, shapeCast_self, shapeCast_1ab_ab_apply, shapeCast_a_1a_apply, shapeCast_1a_a_apply, zero_f32]

/-- The running maximum after the second branch. -/
theorem logit1_apply (wc2 : FVec Ideal S128x2 .bf16) (bc2 : FVec Ideal S1x2 .f32) (acc : FVec Ideal S1024x2 .f32) (x : FVec Ideal S1024x768 .f32)
    (w1 : FVec Ideal S768x512 .f32) (b1 : FVec Ideal S1x512 .f32) (w : FVec Ideal S1x512x128 .bf16) (b : FVec Ideal S1x128 .f32) (y : Fin 1024) (c : Fin 2) :
    k0_pay12 (F := Ideal) wc2 bc2 acc x w1 b1 w b (ix2 y c) = max (acc (ix2 y c)) (branch x w1 b1 w b wc2 bc2 y c) := by
  unfold k0_pay12 branch
  simp only [addf_apply, mm_last, truncf_apply, maximumf_apply, mm_second, mm_first, broadcast_apply,
    broadcastTo_1b_ab_apply, shapeCast_self, shapeCast_1ab_ab_apply, shapeCast_a_1a_apply, shapeCast_1a_a_apply, zero_f32]

/-- The third branch's second product, before its bias. -/
theorem pre2_apply (x : FVec Ideal S1024x768 .f32) (w1 : FVec Ideal S768x512 .f32) (b1 : FVec Ideal S1x512 .f32) (w : FVec Ideal S1x512x128 .bf16)
    (y : Fin 1024) (l : Fin 128) :
    k0_pay13 (F := Ideal) x w1 b1 w (ix2 y l)
      = ∑ j : Fin 512, max (∑ k : Fin 768, x (ix2 y k) * w1 (ix2 k j) + b1 (ix2 (0 : Fin 1) j)) 0 * w (ix3 (0 : Fin 1) j l) := by
  unfold k0_pay13
  simp only [addf_apply, truncf_apply, maximumf_apply, mm_second, mm_first, broadcast_apply,
    broadcastTo_1b_ab_apply, shapeCast_self, shapeCast_1ab_ab_apply, zero_f32]

/-- The stored block: the running maximum against the third branch's logit. -/
theorem out_apply (wc2 : FVec Ideal S128x2 .bf16) (bc2 : FVec Ideal S1x2 .f32) (acc : FVec Ideal S1024x2 .f32) (pre : FVec Ideal S1024x128 .f32)
    (b : FVec Ideal S1x128 .f32) (y : Fin 1024) (c : Fin 2) :
    k0_pay1 (F := Ideal) wc2 bc2 acc pre b (ix2 y c)
      = max (acc (ix2 y c)) (∑ l : Fin 128, max (pre (ix2 y l) + b (ix2 (0 : Fin 1) l)) 0 * wc2 (ix2 l c) + bc2 (ix2 (0 : Fin 1) c)) := by
  unfold k0_pay1
  simp only [addf_apply, mm_last, truncf_apply, maximumf_apply, broadcast_apply,
    broadcastTo_1b_ab_apply, shapeCast_a_1a_apply, shapeCast_1a_a_apply, zero_f32]

end Cert.KernelIdeal.Pay

end
-- ==== Proof.BlockValue.lean ====
/-
  The block of results a grid point leaves, read entry by entry: the largest of the three branches' logits, each
  branch reading its own slab of the folded weights and its own row of the folded biases.
-/
import proofs.«167844_g13408887898444_cont_sun_m_1282_25_alg».proof.Proof.Pieces
import proofs.«167844_g13408887898444_cont_sun_m_1282_25_alg».proof.Proof.Payloads

noncomputable section

namespace Cert.KernelIdeal.BlockValue

open Idealize.ShloMosaic Idealize.ShloMosaic.ValueIdx Idealize.ShloMosaic.TcCoe Cert.KernelIdeal Cert.KernelIdeal.Gen Cert.KernelIdeal.Pieces Cert.KernelIdeal.Pay

/-- At row `y` and class `cc` the block holds the maximum of the three logits. -/
theorem outBlock_apply (x0 x1 x2 : Vec Ideal S1024x768 .f32) (x3 x4 x5 : Vec Ideal S768x512 .f32) (x11 x12 x13 : Vec Ideal S1x512 .f32)
    (x18 : Vec Ideal S1x2 .f32) (s0 : Vec Ideal S3x512x128 .bf16) (s1 : Vec Ideal S128x2 .bf16) (s2 : Vec Ideal S3x128 .f32)
    (y : Fin 1024) (cc : Fin 2) :
    outBlock (F := Ideal) x0 x1 x2 x3 x4 x5 x11 x12 x13 x18 s0 s1 s2 (ix2 y cc)
      = max (max (branch x0 x3 x11 (View.ld s0 slab0) (View.ld s2 brow0) s1 x18 y cc)
            (branch x1 x4 x12 (View.ld s0 slab1) (View.ld s2 brow1) s1 x18 y cc))
          (branch x2 x5 x13 (View.ld s0 slab2) (View.ld s2 brow2) s1 x18 y cc) := by
  unfold outBlock
  rw [out_apply, logit1_apply, logit0_apply, cast_bc2]
  unfold branch
  simp only [pre2_apply]

end Cert.KernelIdeal.BlockValue

end
-- ==== Proof.ScratchIdx.lean ====
/-
  The scratch buffers, read at an index.

  The folded-weight scratch is three slabs `[1, 512, 128]` stacked along its first axis, the folded-bias scratch three
  rows `[1, 128]`. Each slab (row) is a unit-stride box at offset `(i, 0, 0)` (`(i, 0)`), so its own index `(0, j, l)`
  (`(0, l)`) sits at `(i, j, l)` (`(i, l)`) of the scratch, and an index whose first coordinate is not `i` lies outside
  it. Hence a load through slab `i` reads the scratch at first coordinate `i`; and the contents the first grid point
  leaves — three writes, one per slab, last first — are at `(i, j, l)` the payload of the write to slab `i`: the later
  writes miss the index, the write to slab `i` holds it. At the ideal instance that payload is the sum of products
  `∑ p, W2ᵢ (j, p) · Wc1 (p, l)`, and for the biases `∑ p, b2ᵢ (0, p) · Wc1 (p, l) + bc1 (0, l)`.
-/
import proofs.«167844_g13408887898444_cont_sun_m_1282_25_alg».proof.Proof.Pieces
import proofs.«167844_g13408887898444_cont_sun_m_1282_25_alg».proof.Proof.Payloads
import Idealize.ShloMosaic.Lib.ValueIdx

noncomputable section

namespace Cert.KernelIdeal.ScratchIdx

open Idealize.ShloMosaic Idealize.ShloMosaic.ValueIdx Cert.KernelIdeal Cert.KernelIdeal.Gen Cert.KernelIdeal.Pieces

/-! ## Where a slab's and a row's own indices sit in the scratch -/

/-- A unit-stride box at offset `(k, 0, 0)` of one slab places its index `(0, j, l)` at `(k, j, l)`. -/
theorem slab_idx {k : Nat} (i : Fin 3) (hk : (i : Nat) = k) (inb) (j : Fin 512) (l : Fin 128) :
    (Rect.unit (s := S3x512x128) ![k, 0, 0] S1x512x128.size inb).idx (ix3 (0 : Fin 1) j l) = ix3 i j l := by
  funext a
  apply Fin.ext
  match a with
  | ⟨0, _⟩ => simp [LoadRect.idx, hk]
  | ⟨1, _⟩ => simp [LoadRect.idx]
  | ⟨2, _⟩ => simp [LoadRect.idx]

/-- A unit-stride box at offset `(k, 0)` of one row places its index `(0, l)` at `(k, l)`. -/
theorem brow_idx {k : Nat} (i : Fin 3) (hk : (i : Nat) = k) (inb) (l : Fin 128) :
    (Rect.unit (s := S3x128) ![k, 0] S1x128.size inb).idx (ix2 (0 : Fin 1) l) = ix2 i l := by
  funext a
  apply Fin.ext
  match a with
  | ⟨0, _⟩ => simp [LoadRect.idx, hk]
  | ⟨1, _⟩ => simp [LoadRect.idx]

/-- An index whose first coordinate is not `k` lies outside the slab at offset `(k, 0, 0)`. -/
theorem not_mem_slab {k : Nat} (i : Fin 3) (hk : (i : Nat) ≠ k) (inb) (j : Fin 512) (l : Fin 128) :
    ix3 i j l ∉ (Rect.unit (s := S3x512x128) ![k, 0, 0] S1x512x128.size inb).set := by
  rw [Rect.mem_set_unit]
  intro hm
  have h0 := hm ⟨0, by decide⟩
  have h1 : k ≤ (i : Nat) ∧ (i : Nat) < k + 1 := h0
  omega

/-- An index whose first coordinate is not `k` lies outside the row at offset `(k, 0)`. -/
theorem not_mem_brow {k : Nat} (i : Fin 3) (hk : (i : Nat) ≠ k) (inb) (l : Fin 128) :
    ix2 i l ∉ (Rect.unit (s := S3x128) ![k, 0] S1x128.size inb).set := by
  rw [Rect.mem_set_unit]
  intro hm
  have h0 := hm ⟨0, by decide⟩
  have h1 : k ≤ (i : Nat) ∧ (i : Nat) < k + 1 := h0
  omega

/-! ## Loads through the slabs and rows -/

theorem ld_slab0 (s : Vec Ideal S3x512x128 .bf16) (j : Fin 512) (l : Fin 128) :
    View.ld s slab0 (ix3 (0 : Fin 1) j l) = s (ix3 (0 : Fin 3) j l) := congrArg s (slab_idx (k := 0) 0 rfl inb_S3x512x128_S1x512x128_0_0_0 j l)
theorem ld_slab1 (s : Vec Ideal S3x512x128 .bf16) (j : Fin 512) (l : Fin 128) :
    View.ld s slab1 (ix3 (0 : Fin 1) j l) = s (ix3 (1 : Fin 3) j l) := congrArg s (slab_idx (k := 1) 1 rfl inb_S3x512x128_S1x512x128_1_0_0 j l)
theorem ld_slab2 (s : Vec Ideal S3x512x128 .bf16) (j : Fin 512) (l : Fin 128) :
    View.ld s slab2 (ix3 (0 : Fin 1) j l) = s (ix3 (2 : Fin 3) j l) := congrArg s (slab_idx (k := 2) 2 rfl inb_S3x512x128_S1x512x128_2_0_0 j l)
theorem ld_brow0 (s : Vec Ideal S3x128 .f32) (l : Fin 128) :
    View.ld s brow0 (ix2 (0 : Fin 1) l) = s (ix2 (0 : Fin 3) l) := congrArg s (brow_idx (k := 0) 0 rfl inb_S3x128_S1x128_0_0 l)
theorem ld_brow1 (s : Vec Ideal S3x128 .f32) (l : Fin 128) :
    View.ld s brow1 (ix2 (0 : Fin 1) l) = s (ix2 (1 : Fin 3) l) := congrArg s (brow_idx (k := 1) 1 rfl inb_S3x128_S1x128_1_0 l)
theorem ld_brow2 (s : Vec Ideal S3x128 .f32) (l : Fin 128) :
    View.ld s brow2 (ix2 (0 : Fin 1) l) = s (ix2 (2 : Fin 3) l) := congrArg s (brow_idx (k := 2) 2 rfl inb_S3x128_S1x128_2_0 l)

/-! ## The folded weights and biases at an index -/

theorem not_mem_slab2_0 (j : Fin 512) (l : Fin 128) : ix3 (0 : Fin 3) j l ∉ slab2.set :=
  not_mem_slab (k := 2) 0 (by decide) inb_S3x512x128_S1x512x128_2_0_0 j l
theorem not_mem_slab1_0 (j : Fin 512) (l : Fin 128) : ix3 (0 : Fin 3) j l ∉ slab1.set :=
  not_mem_slab (k := 1) 0 (by decide) inb_S3x512x128_S1x512x128_1_0_0 j l
theorem not_mem_slab2_1 (j : Fin 512) (l : Fin 128) : ix3 (1 : Fin 3) j l ∉ slab2.set :=
  not_mem_slab (k := 2) 1 (by decide) inb_S3x512x128_S1x512x128_2_0_0 j l
theorem not_mem_brow2_0 (l : Fin 128) : ix2 (0 : Fin 3) l ∉ brow2.set :=
  not_mem_brow (k := 2) 0 (by decide) inb_S3x128_S1x128_2_0 l
theorem not_mem_brow1_0 (l : Fin 128) : ix2 (0 : Fin 3) l ∉ brow1.set :=
  not_mem_brow (k := 1) 0 (by decide) inb_S3x128_S1x128_1_0 l
theorem not_mem_brow2_1 (l : Fin 128) : ix2 (1 : Fin 3) l ∉ brow2.set :=
  not_mem_brow (k := 2) 1 (by decide) inb_S3x128_S1x128_2_0 l

theorem slab0_emb (j : Fin 512) (l : Fin 128) : slab0.emb (ix3 (0 : Fin 1) j l) = ix3 (0 : Fin 3) j l := slab_idx (k := 0) 0 rfl inb_S3x512x128_S1x512x128_0_0_0 j l
theorem slab1_emb (j : Fin 512) (l : Fin 128) : slab1.emb (ix3 (0 : Fin 1) j l) = ix3 (1 : Fin 3) j l := slab_idx (k := 1) 1 rfl inb_S3x512x128_S1x512x128_1_0_0 j l
theorem slab2_emb (j : Fin 512) (l : Fin 128) : slab2.emb (ix3 (0 : Fin 1) j l) = ix3 (2 : Fin 3) j l := slab_idx (k := 2) 2 rfl inb_S3x512x128_S1x512x128_2_0_0 j l
theorem brow0_emb (l : Fin 128) : brow0.emb (ix2 (0 : Fin 1) l) = ix2 (0 : Fin 3) l := brow_idx (k := 0) 0 rfl inb_S3x128_S1x128_0_0 l
theorem brow1_emb (l : Fin 128) : brow1.emb (ix2 (0 : Fin 1) l) = ix2 (1 : Fin 3) l := brow_idx (k := 1) 1 rfl inb_S3x128_S1x128_1_0 l
theorem brow2_emb (l : Fin 128) : brow2.emb (ix2 (0 : Fin 1) l) = ix2 (2 : Fin 3) l := brow_idx (k := 2) 2 rfl inb_S3x128_S1x128_2_0 l

theorem foldW_apply0 (x6 x7 x8 : Vec Ideal S512x256 .f32) (x9 : Vec Ideal S256x128 .f32) (j : Fin 512) (l : Fin 128) :
    foldW x6 x7 x8 x9 (ix3 (0 : Fin 3) j l) = ∑ p : Fin 256, x6 (ix2 j p) * x9 (ix2 p l) := by
  unfold foldW
  rw [View.canon_cons_of_not_mem, View.canon_cons_of_not_mem, ← slab0_emb j l, View.canon_cons_emb]
  exacts [Pay.foldW0_apply x9 x6 0 j l, not_mem_slab1_0 j l, not_mem_slab2_0 j l]

theorem foldW_apply1 (x6 x7 x8 : Vec Ideal S512x256 .f32) (x9 : Vec Ideal S256x128 .f32) (j : Fin 512) (l : Fin 128) :
    foldW x6 x7 x8 x9 (ix3 (1 : Fin 3) j l) = ∑ p : Fin 256, x7 (ix2 j p) * x9 (ix2 p l) := by
  unfold foldW
  rw [View.canon_cons_of_not_mem, ← slab1_emb j l, View.canon_cons_emb]
  exacts [Pay.foldW1_apply x9 x7 0 j l, not_mem_slab2_1 j l]

theorem foldW_apply2 (x6 x7 x8 : Vec Ideal S512x256 .f32) (x9 : Vec Ideal S256x128 .f32) (j : Fin 512) (l : Fin 128) :
    foldW x6 x7 x8 x9 (ix3 (2 : Fin 3) j l) = ∑ p : Fin 256, x8 (ix2 j p) * x9 (ix2 p l) := by
  unfold foldW
  rw [← slab2_emb j l, View.canon_cons_emb]
  exact Pay.foldW2_apply x9 x8 0 j l

theorem foldB_apply0 (x9 : Vec Ideal S256x128 .f32) (x14 x15 x16 : Vec Ideal S1x256 .f32) (x17 : Vec Ideal S1x128 .f32) (l : Fin 128) :
    foldB x9 x14 x15 x16 x17 (ix2 (0 : Fin 3) l) = ∑ p : Fin 256, x14 (ix2 (0 : Fin 1) p) * x9 (ix2 p l) + x17 (ix2 (0 : Fin 1) l) := by
  unfold foldB
  rw [View.canon_cons_of_not_mem, View.canon_cons_of_not_mem, ← brow0_emb l, View.canon_cons_emb]
  exacts [Pay.foldB0_apply x9 x17 x14 0 l, not_mem_brow1_0 l, not_mem_brow2_0 l]

theorem foldB_apply1 (x9 : Vec Ideal S256x128 .f32) (x14 x15 x16 : Vec Ideal S1x256 .f32) (x17 : Vec Ideal S1x128 .f32) (l : Fin 128) :
    foldB x9 x14 x15 x16 x17 (ix2 (1 : Fin 3) l) = ∑ p : Fin 256, x15 (ix2 (0 : Fin 1) p) * x9 (ix2 p l) + x17 (ix2 (0 : Fin 1) l) := by
  unfold foldB
  rw [View.canon_cons_of_not_mem, ← brow1_emb l, View.canon_cons_emb]
  exacts [Pay.foldB1_apply x9 x17 x15 0 l, not_mem_brow2_1 l]

theorem foldB_apply2 (x9 : Vec Ideal S256x128 .f32) (x14 x15 x16 : Vec Ideal S1x256 .f32) (x17 : Vec Ideal S1x128 .f32) (l : Fin 128) :
    foldB x9 x14 x15 x16 x17 (ix2 (2 : Fin 3) l) = ∑ p : Fin 256, x16 (ix2 (0 : Fin 1) p) * x9 (ix2 p l) + x17 (ix2 (0 : Fin 1) l) := by
  unfold foldB
  rw [← brow2_emb l, View.canon_cons_emb, Pay.foldB2_apply, Pay.cast_row]

end Cert.KernelIdeal.ScratchIdx

end
-- ==== Proof.Blocks.lean ====
import proofs.«167844_g13408887898444_cont_sun_m_1282_25_alg».proof.Proof.Gen.KernelIdeal.Frame
import Idealize.ShloMosaic.Lib.Pipeline.Value
import Idealize.ShloMosaic.Lib.ValueLayout
import Idealize.ShloMosaic.Lib.StableHlo.Run

/-! # The kernel's input windows, index by index

Each of the 19 input windows of the one grid of 4 points, read at an index of its block, is an argument array
read at an index:

* windows 0, 1, 2 — the three inputs `[4096, 768]` in row blocks of 1024: block row `y` at point `t` is global
  row `1024 * t + y`;
* windows 3 … 10 — the eight weight matrices, each its whole array at every point;
* windows 11 … 18 — the eight bias vectors `[n]` as rows `[1, n]`: the row array is the vector with a unit axis
  put in front before the grid runs, so its entry `(0, j)` is the vector's entry `j`.

An element of a block sits in its array, on each axis, at (block index) × (block size) + 1 × (coordinate inside
the block); the block indices are decided once over the four points. -/

set_option maxRecDepth 16384

noncomputable section

namespace Cert.KernelIdeal.Blk

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- global row of block row y at point t -/
def row (t : Fin cfg0.N) (y : Fin 1024) : Fin 4096 :=
  ⟨1024 * t.val + y.val, by have := lt_of_lt_of_eq t.isLt (show cfg0.N = 4 from N_0); have := y.isLt; omega⟩

@[simp] theorem row_val (t : Fin cfg0.N) (y : Fin 1024) : (row t y).val = 1024 * t.val + y.val := rfl

/-! ## The block indices, decided over the grid -/

/-- The row-block windows sit at block (t, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Every other input window sits at block (0, 0) at every point. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)
theorem idx17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)
theorem idx18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)

/-! ## Windows 0, 1, 2: row blocks of the inputs -/

/-- Block row `y`, column `k` of the first input's block at point `t` is its entry at global row `1024 t + y`. -/
theorem x0_blk (c : Dev nD) (t : Fin cfg0.N) (y : Fin 1024) (k : Fin 768) :
    (iblk m c 0 t : Vec Ideal S1024x768 .f32) (ix2 y k) = m ((c : Thread nD τ).loc main_arg0) (ix2 (row t y) k) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t 0 * 1024 + 1 * y.val = 1024 * t.val + y.val; rw [e0]; omega
  | ⟨1, _⟩ => show win0_0.index t 1 * 768 + 1 * k.val = k.val; rw [e1]; omega

/-- The same for the second input. -/
theorem x1_blk (c : Dev nD) (t : Fin cfg0.N) (y : Fin 1024) (k : Fin 768) :
    (iblk m c 1 t : Vec Ideal S1024x768 .f32) (ix2 y k) = m ((c : Thread nD τ).loc main_arg1) (ix2 (row t y) k) := by
  obtain ⟨e0, e1⟩ := idx1 t
  unfold iblk
  rw [View.read_apply]
  show V m c main_arg1 _ = _
  rw [V_main_arg1]
  congr 1
  funext a
  apply Fin.ext
  match a with
  | ⟨0, _⟩ => show win0_1.index t 0 * 1024 + 1 * y.val = 1024 * t.val + y.val; rw [e0]; omega
  | ⟨1, _⟩ => show win0_1.index t 1 * 768 + 1 * k.val = k.val; rw [e1]; omega

/-- The same for the third input. -/
theorem x2_blk (c : Dev nD) (t : Fin cfg0.N) (y : Fin 1024) (k : Fin 768) :
    (iblk m c 2 t : Vec Ideal S1024x768 .f32) (ix2 y k) = m ((c : Thread nD τ).loc main_arg2) (ix2 (row t y) k) := by
  obtain ⟨e0, e1⟩ := idx2 t
  unfold iblk
  rw [View.read_apply]
  show V m c main_arg2 _ = _
  rw [V_main_arg2]
  congr 1
  funext a
  apply Fin.ext
  match a with
  | ⟨0, _⟩ => show win0_2.index t 0 * 1024 + 1 * y.val = 1024 * t.val + y.val; rw [e0]; omega
  | ⟨1, _⟩ => show win0_2.index t 1 * 768 + 1 * k.val = k.val; rw [e1]; omega

/-! ## Windows 3 … 10: the weight matrices, whole at every point -/

/-- First-layer weights of the first branch. -/
theorem w3_blk (c : Dev nD) (t : Fin cfg0.N) (k : Fin 768) (j : Fin 512) :
    (iblk m c 3 t : Vec Ideal S768x512 .f32) (ix2 k j) = m ((c : Thread nD τ).loc main_arg3) (ix2 k j) := by
  obtain ⟨e0, e1⟩ := idx3 t
  unfold iblk
  rw [View.read_apply]
  show V m c main_arg3 _ = _
  rw [V_main_arg3]
  congr 1
  funext a
  apply Fin.ext
  match a with
  | ⟨0, _⟩ => show win0_3.index t 0 * 768 + 1 * k.val = k.val; rw [e0]; omega
  | ⟨1, _⟩ => show win0_3.index t 1 * 512 + 1 * j.val = j.val; rw [e1]; omega

/-- First-layer weights of the second branch. -/
theorem w4_blk (c : Dev nD) (t : Fin cfg0.N) (k : Fin 768) (j : Fin 512) :
    (iblk m c 4 t : Vec Ideal S768x512 .f32) (ix2 k j) = m ((c : Thread nD τ).loc main_arg7) (ix2 k j) := by
  obtain ⟨e0, e1⟩ := idx4 t
  unfold iblk
  rw [View.read_apply]
  show V m c main_arg7 _ = _
  rw [V_main_arg7]
  congr 1
  funext a
  apply Fin.ext
  match a with
  | ⟨0, _⟩ => show win0_4.index t 0 * 768 + 1 * k.val = k.val; rw [e0]; omega
  | ⟨1, _⟩ => show win0_4.index t 1 * 512 + 1 * j.val = j.val; rw [e1]; omega

/-- First-layer weights of the third branch. -/
theorem w5_blk (c : Dev nD) (t : Fin cfg0.N) (k : Fin 768) (j : Fin 512) :
    (iblk m c 5 t : Vec Ideal S768x512 .f32) (ix2 k j) = m ((c : Thread nD τ).loc main_arg11) (ix2 k j) := by
  obtain ⟨e0, e1⟩ := idx5 t
  unfold iblk
  rw [View.read_apply]
  show V m c main_arg11 _ = _
  rw [V_main_arg11]
  congr 1
  funext a
  apply Fin.ext
  match a with
  | ⟨0, _⟩ => show win0_5.index t 0 * 768 + 1 * k.val = k.val; rw [e0]; omega
  | ⟨1, _⟩ => show win0_5.index t 1 * 512 + 1 * j.val = j.val; rw [e1]; omega

/-- Second-layer weights of the first branch. -/
theorem w6_blk (c : Dev nD) (t : Fin cfg0.N) (j : Fin 512) (p : Fin 256) :
    (iblk m c 6 t : Vec Ideal S512x256 .f32) (ix2 j p) = m ((c : Thread nD τ).loc main_arg5) (ix2 j p) := by
  obtain ⟨e0, e1⟩ := idx6 t
  unfold iblk
  rw [View.read_apply]
  show V m c main_arg5 _ = _
  rw [V_main_arg5]
  congr 1
  funext a
  apply Fin.ext
  match a with
  | ⟨0, _⟩ => show win0_6.index t 0 * 512 + 1 * j.val = j.val; rw [e0]; omega
  | ⟨1, _⟩ => show win0_6.index t 1 * 256 + 1 * p.val = p.val; rw [e1]; omega

/-- Second-layer weights of the second branch. -/
theorem w7_blk (c : Dev nD) (t : Fin cfg0.N) (j : Fin 512) (p : Fin 256) :
    (iblk m c 7 t : Vec Ideal S512x256 .f32) (ix2 j p) = m ((c : Thread nD τ).loc main_arg9) (ix2 j p) := by
  obtain ⟨e0, e1⟩ := idx7 t
  unfold iblk
  rw [View.read_apply]
  show V m c main_arg9 _ = _
  rw [V_main_arg9]
  congr 1
  funext a
  apply Fin.ext
  match a with
  | ⟨0, _⟩ => show win0_7.index t 0 * 512 + 1 * j.val = j.val; rw [e0]; omega
  | ⟨1, _⟩ => show win0_7.index t 1 * 256 + 1 * p.val = p.val; rw [e1]; omega

/-- Second-layer weights of the third branch. -/
theorem w8_blk (c : Dev nD) (t : Fin cfg0.N) (j : Fin 512) (p : Fin 256) :
    (iblk m c 8 t : Vec Ideal S512x256 .f32) (ix2 j p) = m ((c : Thread nD τ).loc main_arg13) (ix2 j p) := by
  obtain ⟨e0, e1⟩ := idx8 t
  unfold iblk
  rw [View.read_apply]
  show V m c main_arg13 _ = _
  rw [V_main_arg13]
  congr 1
  funext a
  apply Fin.ext
  match a with
  | ⟨0, _⟩ => show win0_8.index t 0 * 512 + 1 * j.val = j.val; rw [e0]; omega
  | ⟨1, _⟩ => show win0_8.index t 1 * 256 + 1 * p.val = p.val; rw [e1]; omega

/-- First weights of the head. -/
theorem w9_blk (c : Dev nD) (t : Fin cfg0.N) (p : Fin 256) (q : Fin 128) :
    (iblk m c 9 t : Vec Ideal S256x128 .f32) (ix2 p q) = m ((c : Thread nD τ).loc main_arg15) (ix2 p q) := by
  obtain ⟨e0, e1⟩ := idx9 t
  unfold iblk
  rw [View.read_apply]
  show V m c main_arg15 _ = _
  rw [V_main_arg15]
  congr 1
  funext a
  apply Fin.ext
  match a with
  | ⟨0, _⟩ => show win0_9.index t 0 * 256 + 1 * p.val = p.val; rw [e0]; omega
  | ⟨1, _⟩ => show win0_9.index t 1 * 128 + 1 * q.val = q.val; rw [e1]; omega

/-- Second weights of the head. -/
theorem w10_blk (c : Dev nD) (t : Fin cfg0.N) (q : Fin 128) (cc : Fin 2) :
    (iblk m c 10 t : Vec Ideal S128x2 .f32) (ix2 q cc) = m ((c : Thread nD τ).loc main_arg17) (ix2 q cc) := by
  obtain ⟨e0, e1⟩ := idx10 t
  unfold iblk
  rw [View.read_apply]
  show V m c main_arg17 _ = _
  rw [V_main_arg17]
  congr 1
  funext a
  apply Fin.ext
  match a with
  | ⟨0, _⟩ => show win0_10.index t 0 * 128 + 1 * q.val = q.val; rw [e0]; omega
  | ⟨1, _⟩ => show win0_10.index t 1 * 2 + 1 * cc.val = cc.val; rw [e1]; omega

/-! ## Windows 11 … 18: the bias vectors as rows

Before the grid runs each bias vector `[n]` is recast as a row `[1, n]`; the row arrays are what the windows read. -/

/-- The row arrays as the grid finds them: each is its vector with a unit axis in front. -/
theorem v0_eq (c : Dev nD) :
    (V m c main_v0 : S1x512.Idx → EReal) = shapeCast S1x512 (m ((c : Thread nD τ).loc main_arg4)) shapeCasts_S512_S1x512 := by
  dsimp only [Gen.V, Gen.hostOps0]; after_results; rfl
theorem v1_eq (c : Dev nD) :
    (V m c main_v1 : S1x512.Idx → EReal) = shapeCast S1x512 (m ((c : Thread nD τ).loc main_arg8)) shapeCasts_S512_S1x512 := by
  dsimp only [Gen.V, Gen.hostOps0]; after_results; rfl
theorem v2_eq (c : Dev nD) :
    (V m c main_v2 : S1x512.Idx → EReal) = shapeCast S1x512 (m ((c : Thread nD τ).loc main_arg12)) shapeCasts_S512_S1x512 := by
  dsimp only [Gen.V, Gen.hostOps0]; after_results; rfl
theorem v3_eq (c : Dev nD) :
    (V m c main_v3 : S1x256.Idx → EReal) = shapeCast S1x256 (m ((c : Thread nD τ).loc main_arg6)) shapeCasts_S256_S1x256 := by
  dsimp only [Gen.V, Gen.hostOps0]; after_results; rfl
theorem v4_eq (c : Dev nD) :
    (V m c main_v4 : S1x256.Idx → EReal) = shapeCast S1x256 (m ((c : Thread nD τ).loc main_arg10)) shapeCasts_S256_S1x256 := by
  dsimp only [Gen.V, Gen.hostOps0]; after_results; rfl
theorem v5_eq (c : Dev nD) :
    (V m c main_v5 : S1x256.Idx → EReal) = shapeCast S1x256 (m ((c : Thread nD τ).loc main_arg14)) shapeCasts_S256_S1x256 := by
  dsimp only [Gen.V, Gen.hostOps0]; after_results; rfl
theorem v6_eq (c : Dev nD) :
    (V m c main_v6 : S1x128.Idx → EReal) = shapeCast S1x128 (m ((c : Thread nD τ).loc main_arg16)) shapeCasts_S128_S1x128 := by
  dsimp only [Gen.V, Gen.hostOps0]; after_results; rfl
theorem v7_eq (c : Dev nD) :
    (V m c main_v7 : S1x2.Idx → EReal) = shapeCast S1x2 (m ((c : Thread nD τ).loc main_arg18)) shapeCasts_S2_S1x2 := by
  dsimp only [Gen.V, Gen.hostOps0]; after_results; rfl

/-- First-layer bias of the first branch. -/
theorem w11_blk (c : Dev nD) (t : Fin cfg0.N) (j : Fin 512) :
    (iblk m c 11 t : Vec Ideal S1x512 .f32) (ix2 (0 : Fin 1) j) = m ((c : Thread nD τ).loc main_arg4) (ix1 j) := by
  obtain ⟨e0, e1⟩ := idx11 t
  unfold iblk
  rw [View.read_apply]
  show V m c main_v0 _ = _
  have hidx : ((cfg0.win 11).blk t).view.emb (ix2 (0 : Fin 1) j) = ix2 (0 : Fin 1) j := by
    funext a
    apply Fin.ext
    match a with
    | ⟨0, _⟩ => show win0_11.index t 0 * 1 + 1 * 0 = 0; rw [e0]
    | ⟨1, _⟩ => show win0_11.index t 1 * 512 + 1 * j.val = j.val; rw [e1]; omega
  rw [hidx]
  show (V m c main_v0 : S1x512.Idx → EReal) (ix2 (0 : Fin 1) j) = _
  rw [v0_eq]
  exact shapeCast_a_1a_apply _ _ _ _

/-- First-layer bias of the second branch. -/
theorem w12_blk (c : Dev nD) (t : Fin cfg0.N) (j : Fin 512) :
    (iblk m c 12 t : Vec Ideal S1x512 .f32) (ix2 (0 : Fin 1) j) = m ((c : Thread nD τ).loc main_arg8) (ix1 j) := by
  obtain ⟨e0, e1⟩ := idx12 t
  unfold iblk
  rw [View.read_apply]
  show V m c main_v1 _ = _
  have hidx : ((cfg0.win 12).blk t).view.emb (ix2 (0 : Fin 1) j) = ix2 (0 : Fin 1) j := by
    funext a
    apply Fin.ext
    match a with
    | ⟨0, _⟩ => show win0_12.index t 0 * 1 + 1 * 0 = 0; rw [e0]
    | ⟨1, _⟩ => show win0_12.index t 1 * 512 + 1 * j.val = j.val; rw [e1]; omega
  rw [hidx]
  show (V m c main_v1 : S1x512.Idx → EReal) (ix2 (0 : Fin 1) j) = _
  rw [v1_eq]
  exact shapeCast_a_1a_apply _ _ _ _

/-- First-layer bias of the third branch. -/
theorem w13_blk (c : Dev nD) (t : Fin cfg0.N) (j : Fin 512) :
    (iblk m c 13 t : Vec Ideal S1x512 .f32) (ix2 (0 : Fin 1) j) = m ((c : Thread nD τ).loc main_arg12) (ix1 j) := by
  obtain ⟨e0, e1⟩ := idx13 t
  unfold iblk
  rw [View.read_apply]
  show V m c main_v2 _ = _
  have hidx : ((cfg0.win 13).blk t).view.emb (ix2 (0 : Fin 1) j) = ix2 (0 : Fin 1) j := by
    funext a
    apply Fin.ext
    match a with
    | ⟨0, _⟩ => show win0_13.index t 0 * 1 + 1 * 0 = 0; rw [e0]
    | ⟨1, _⟩ => show win0_13.index t 1 * 512 + 1 * j.val = j.val; rw [e1]; omega
  rw [hidx]
  show (V m c main_v2 : S1x512.Idx → EReal) (ix2 (0 : Fin 1) j) = _
  rw [v2_eq]
  exact shapeCast_a_1a_apply _ _ _ _

/-- Second-layer bias of the first branch. -/
theorem w14_blk (c : Dev nD) (t : Fin cfg0.N) (p : Fin 256) :
    (iblk m c 14 t : Vec Ideal S1x256 .f32) (ix2 (0 : Fin 1) p) = m ((c : Thread nD τ).loc main_arg6) (ix1 p) := by
  obtain ⟨e0, e1⟩ := idx14 t
  unfold iblk
  rw [View.read_apply]
  show V m c main_v3 _ = _
  have hidx : ((cfg0.win 14).blk t).view.emb (ix2 (0 : Fin 1) p) = ix2 (0 : Fin 1) p := by
    funext a
    apply Fin.ext
    match a with
    | ⟨0, _⟩ => show win0_14.index t 0 * 1 + 1 * 0 = 0; rw [e0]
    | ⟨1, _⟩ => show win0_14.index t 1 * 256 + 1 * p.val = p.val; rw [e1]; omega
  rw [hidx]
  show (V m c main_v3 : S1x256.Idx → EReal) (ix2 (0 : Fin 1) p) = _
  rw [v3_eq]
  exact shapeCast_a_1a_apply _ _ _ _

/-- Second-layer bias of the second branch. -/
theorem w15_blk (c : Dev nD) (t : Fin cfg0.N) (p : Fin 256) :
    (iblk m c 15 t : Vec Ideal S1x256 .f32) (ix2 (0 : Fin 1) p) = m ((c : Thread nD τ).loc main_arg10) (ix1 p) := by
  obtain ⟨e0, e1⟩ := idx15 t
  unfold iblk
  rw [View.read_apply]
  show V m c main_v4 _ = _
  have hidx : ((cfg0.win 15).blk t).view.emb (ix2 (0 : Fin 1) p) = ix2 (0 : Fin 1) p := by
    funext a
    apply Fin.ext
    match a with
    | ⟨0, _⟩ => show win0_15.index t 0 * 1 + 1 * 0 = 0; rw [e0]
    | ⟨1, _⟩ => show win0_15.index t 1 * 256 + 1 * p.val = p.val; rw [e1]; omega
  rw [hidx]
  show (V m c main_v4 : S1x256.Idx → EReal) (ix2 (0 : Fin 1) p) = _
  rw [v4_eq]
  exact shapeCast_a_1a_apply _ _ _ _

/-- Second-layer bias of the third branch. -/
theorem w16_blk (c : Dev nD) (t : Fin cfg0.N) (p : Fin 256) :
    (iblk m c 16 t : Vec Ideal S1x256 .f32) (ix2 (0 : Fin 1) p) = m ((c : Thread nD τ).loc main_arg14) (ix1 p) := by
  obtain ⟨e0, e1⟩ := idx16 t
  unfold iblk
  rw [View.read_apply]
  show V m c main_v5 _ = _
  have hidx : ((cfg0.win 16).blk t).view.emb (ix2 (0 : Fin 1) p) = ix2 (0 : Fin 1) p := by
    funext a
    apply Fin.ext
    match a with
    | ⟨0, _⟩ => show win0_16.index t 0 * 1 + 1 * 0 = 0; rw [e0]
    | ⟨1, _⟩ => show win0_16.index t 1 * 256 + 1 * p.val = p.val; rw [e1]; omega
  rw [hidx]
  show (V m c main_v5 : S1x256.Idx → EReal) (ix2 (0 : Fin 1) p) = _
  rw [v5_eq]
  exact shapeCast_a_1a_apply _ _ _ _

/-- First bias of the head. -/
theorem w17_blk (c : Dev nD) (t : Fin cfg0.N) (q : Fin 128) :
    (iblk m c 17 t : Vec Ideal S1x128 .f32) (ix2 (0 : Fin 1) q) = m ((c : Thread nD τ).loc main_arg16) (ix1 q) := by
  obtain ⟨e0, e1⟩ := idx17 t
  unfold iblk
  rw [View.read_apply]
  show V m c main_v6 _ = _
  have hidx : ((cfg0.win 17).blk t).view.emb (ix2 (0 : Fin 1) q) = ix2 (0 : Fin 1) q := by
    funext a
    apply Fin.ext
    match a with
    | ⟨0, _⟩ => show win0_17.index t 0 * 1 + 1 * 0 = 0; rw [e0]
    | ⟨1, _⟩ => show win0_17.index t 1 * 128 + 1 * q.val = q.val; rw [e1]; omega
  rw [hidx]
  show (V m c main_v6 : S1x128.Idx → EReal) (ix2 (0 : Fin 1) q) = _
  rw [v6_eq]
  exact shapeCast_a_1a_apply _ _ _ _

/-- Second bias of the head. -/
theorem w18_blk (c : Dev nD) (t : Fin cfg0.N) (cc : Fin 2) :
    (iblk m c 18 t : Vec Ideal S1x2 .f32) (ix2 (0 : Fin 1) cc) = m ((c : Thread nD τ).loc main_arg18) (ix1 cc) := by
  obtain ⟨e0, e1⟩ := idx18 t
  unfold iblk
  rw [View.read_apply]
  show V m c main_v7 _ = _
  have hidx : ((cfg0.win 18).blk t).view.emb (ix2 (0 : Fin 1) cc) = ix2 (0 : Fin 1) cc := by
    funext a
    apply Fin.ext
    match a with
    | ⟨0, _⟩ => show win0_18.index t 0 * 1 + 1 * 0 = 0; rw [e0]
    | ⟨1, _⟩ => show win0_18.index t 1 * 2 + 1 * cc.val = cc.val; rw [e1]; omega
  rw [hidx]
  show (V m c main_v7 : S1x2.Idx → EReal) (ix2 (0 : Fin 1) cc) = _
  rw [v7_eq]
  exact shapeCast_a_1a_apply _ _ _ _

end Cert.KernelIdeal.Blk

end
-- ==== Proof.Final.lean ====
import proofs.«167844_g13408887898444_cont_sun_m_1282_25_alg».proof.Proof.Gen.KernelIdeal.Value
import proofs.«167844_g13408887898444_cont_sun_m_1282_25_alg».proof.Proof.Blocks

/-! # From blocks to the array

The result array `[4096, 2]` is written back in row blocks of 1024, one per grid point, block `t` at rows
`1024 t … 1024 t + 1023`. If what every point leaves for its write-back is a function `G` of the global row and
the class, the array after the run is `G`: the four blocks tile the array (row `r` lies in block `r / 1024`). -/

set_option maxRecDepth 16384

noncomputable section

namespace Cert.KernelIdeal.Blk

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The result's block at point `t` is block (t, 0). -/
theorem idx19 : ∀ t : Fin cfg0.N, win0_19.index t (0 : Fin 2) = t.val ∧ win0_19.index t (1 : Fin 2) = 0 :=
  (by decide +kernel : ∀ t : Fin grid0.N, win0_19.index t (0 : Fin 2) = t.val ∧ win0_19.index t (1 : Fin 2) = 0)

/-- The function `G` of row and class as contents of the result array. -/
abbrev asArr (G : Fin 4096 → Fin 2 → EReal) : S4096x2.Idx → EReal := fun i => G (i 0) (i 1)

/-- What point `t` writes back is block `t` of `G`. -/
theorem flushed_eq_of_blocks (c : Dev nD) (G : Fin 4096 → Fin 2 → EReal)
    (hG : ∀ (t : Fin cfg0.N) (y : Fin 1024) (cc : Fin 2),
      ((outsAt0 m c t.val t.isLt).1 : Vec Ideal S1024x2 .f32) (ix2 y cc) = G (row t y) cc)
    (t : Fin cfg0.N) :
    (dats m 0 c).flushed 19 t = ((cfg0.win 19).blk t).view.read (Elt Ideal) (asArr G) := by
  obtain ⟨e0, e1⟩ := idx19 t
  rw [Value.flushed19]
  funext j
  rw [View.read_apply]
  have hj : (cfg0.win 19).xinj (grid0.coords t) j = (ix2 (j 0) (j 1) : S1024x2.Idx) := by
    funext a
    match a with
    | ⟨0, _⟩ => rfl
    | ⟨1, _⟩ => rfl
  show ((outsAt0 m c t.val t.isLt).1 : Vec Ideal S1024x2 .f32) ((cfg0.win 19).xinj (grid0.coords t) j) = G _ _
  rw [hj, hG t (j 0) (j 1)]
  congr 1
  · apply Fin.ext
    show 1024 * t.val + (j 0).val = win0_19.index t 0 * 1024 + 1 * (j 0).val
    rw [e0]; omega
  · apply Fin.ext
    show (j 1).val = win0_19.index t 1 * 2 + 1 * (j 1).val
    rw [e1]; omega

/-- An index of the array is in point `t`'s block iff each coordinate is in the block's range on its axis. -/
theorem mem_blk19 (t : Fin cfg0.N) (i : S4096x2.Idx) :
    i ∈ ((cfg0.win 19).blk t).view.set ↔ ∀ a : Fin 2, win0_19.index t a * S1024x2.size a ≤ (i a).val ∧ (i a).val < win0_19.index t a * S1024x2.size a + S1024x2.size a := by
  show i ∈ ((View.whole main_v8).slice (win0_19.rect t)).set ↔ _
  rw [View.set_slice_whole, Rect.mem_set_unit]
  exact Iff.rfl

/-- Every index of the array lies in the block of the point its row divided by 1024 names. -/
theorem cover19 (i : S4096x2.Idx) :
    ∃ t : Fin cfg0.N, (cfg0.win 19).flush t = true ∧ i ∈ ((cfg0.win 19).blk t).view.set := by
  have hN : cfg0.N = 4 := N_0
  have hi0 : (i 0).val < 4096 := (i 0).isLt
  have hi1 : (i 1).val < 2 := (i 1).isLt
  refine ⟨⟨(i 0).val / 1024, by omega⟩, flush0_19 _, ?_⟩
  obtain ⟨e0, e1⟩ := idx19 ⟨(i 0).val / 1024, by omega⟩
  rw [mem_blk19]
  intro a
  match a with
  | ⟨0, _⟩ =>
    show win0_19.index ⟨(i 0).val / 1024, _⟩ (0 : Fin 2) * 1024 ≤ (i 0).val ∧ (i 0).val < win0_19.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_19.index ⟨(i 0).val / 1024, _⟩ (1 : Fin 2) * 2 ≤ (i 1).val ∧ (i 1).val < win0_19.index ⟨(i 0).val / 1024, _⟩ (1 : Fin 2) * 2 + 2
    rw [e1]; omega

/-- if after every point t the output's staging buffer holds, at block row y and class cc, G at the global row, then the result array after the run is G -/
theorem final_of_blocks (c : Dev nD) (G : Fin 4096 → Fin 2 → EReal)
    (hG : ∀ (t : Fin cfg0.N) (y : Fin 1024) (cc : Fin 2),
      ((outsAt0 m c t.val t.isLt).1 : Vec Ideal S1024x2 .f32) (ix2 y cc) = G (row t y) cc) :
    (dats m 0 c).arrAt 19 cfg0.N = fun i : S4096x2.Idx => G (i 0) (i 1) :=
  (dats m 0 c).arrAt_eq_of_cover 19 (asArr G) (fun t _ => flushed_eq_of_blocks m c G hG t) cover19

end Cert.KernelIdeal.Blk

end
-- ==== Proof.Spec.lean ====
/-
  The arithmetic of one branch of the model, and the law that lets the second dense layer be folded into the
  classifier's first one.

  A branch takes a row `x` of 768 features through `h = relu (x · W1 + b1)`, then `h2 = h · W2 + b2`, then the shared
  classifier `relu (h2 · Wc1 + bc1) · Wc2 + bc2`. Between `h2` and the classifier's first product there is no
  nonlinearity, so over the reals
      (h · W2 + b2) · Wc1 + bc1 = h · (W2 · Wc1) + (b2 · Wc1 + bc1),
  by distributing the outer product over the inner sum and exchanging the two summations. On the extended reals
  distributivity fails at the infinities, so the law is stated for operands that are finite: `h`, `W2`, `b2` and
  `Wc1` are real, and `bc1` may be any extended real (it only rides along an associativity of `+`).
-/
import Idealize.ShloMosaic.Lib.ValueIdx
import Idealize.ShloMosaic.PureOps.Ideal.Laws

noncomputable section

namespace Cert.Spec

open Idealize.ShloMosaic

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array of extended reals all of whose entries are finite. -/
def AllReal {ι : Type} (a : ι → EReal) : Prop := ∀ i, a i ≠ ⊤ ∧ a i ≠ ⊥

/-- A finite array is the coercion of a real one. -/
theorem AllReal.exists_real {ι : Type} {a : ι → EReal} (h : AllReal a) : ∃ a' : ι → ℝ, a = fun i => (a' i : EReal) :=
  ⟨fun i => (a i).toReal, funext fun i => (EReal.coe_toReal (h i).1 (h i).2).symm⟩

variable {K J P L : Type} [Fintype K] [Fintype J] [Fintype P] [Fintype L]

/-- The first layer at one hidden unit: `relu (x · W1 + b1)`. -/
def hid (x : K → EReal) (W1 : K → J → EReal) (b1 : J → EReal) (j : J) : EReal :=
  max (∑ k, x k * W1 k j + b1 j) 0

/-- The first layer of real operands is real. -/
theorem hid_coe (x : K → ℝ) (W1 : K → J → ℝ) (b1 : J → ℝ) (j : J) :
    hid (fun k => (x k : EReal)) (fun k j => (W1 k j : EReal)) (fun j => (b1 j : EReal)) j
      = ((max (∑ k, x k * W1 k j + b1 j) 0 : ℝ) : EReal) := by
  unfold hid
  simp only [← EReal.coe_mul, ← coe_sum, ← EReal.coe_add]
  rw [← EReal.coe_zero]
  exact (EReal.coe_strictMono.monotone.map_max).symm

/-- The folding law at one classifier unit, over real `h`, `W2`, `b2`, `Wc1`: distribute, exchange the sums. -/
theorem fold_layers (h : J → ℝ) (W2 : J → P → ℝ) (b2 : P → ℝ) (Wc : P → ℝ) (bc : EReal) :
    (∑ p, (∑ j, (h j : EReal) * (W2 j p : EReal) + (b2 p : EReal)) * (Wc p : EReal)) + bc
      = (∑ j, (h j : EReal) * (∑ p, (W2 j p : EReal) * (Wc p : EReal))) + ((∑ p, (b2 p : EReal) * (Wc p : EReal)) + bc) := by
  simp only [← EReal.coe_mul, ← coe_sum, ← EReal.coe_add]
  rw [← add_assoc, ← EReal.coe_add]
  congr 2
  simp only [add_mul, Finset.sum_add_distrib, Finset.sum_mul, Finset.mul_sum]
  rw [Finset.sum_comm]
  congr 1
  exact Finset.sum_congr rfl fun j _ => Finset.sum_congr rfl fun p _ => by ring

/-- One branch as the reference computes it: the second layer, then the classifier. -/
def refBranch (x : K → EReal) (W1 : K → J → EReal) (b1 : J → EReal) (W2 : J → P → EReal) (b2 : P → EReal)
    (Wc1 : P → L → EReal) (bc1 : L → EReal) (Wc2 : L → EReal) (bc2 : EReal) : EReal :=
  ∑ l, max (∑ p, (∑ j, hid x W1 b1 j * W2 j p + b2 p) * Wc1 p l + bc1 l) 0 * Wc2 l + bc2

/-- One branch as the kernel computes it: the second layer's weights and bias folded into the classifier's first. -/
def kerBranch (x : K → EReal) (W1 : K → J → EReal) (b1 : J → EReal) (W2 : J → P → EReal) (b2 : P → EReal)
    (Wc1 : P → L → EReal) (bc1 : L → EReal) (Wc2 : L → EReal) (bc2 : EReal) : EReal :=
  ∑ l, max (∑ j, hid x W1 b1 j * (∑ p, W2 j p * Wc1 p l) + (∑ p, b2 p * Wc1 p l + bc1 l)) 0 * Wc2 l + bc2

/-- On finite inputs, weights and biases of the first two layers and a finite first classifier matrix, the two forms
    of a branch agree. -/
theorem kerBranch_eq_refBranch (x : K → EReal) (W1 : K → J → EReal) (b1 : J → EReal) (W2 : J → P → EReal) (b2 : P → EReal)
    (Wc1 : P → L → EReal) (bc1 : L → EReal) (Wc2 : L → EReal) (bc2 : EReal)
    (hx : AllReal x) (hW1 : AllReal fun kj : K × J => W1 kj.1 kj.2) (hb1 : AllReal b1)
    (hW2 : AllReal fun jp : J × P => W2 jp.1 jp.2) (hb2 : AllReal b2) (hWc1 : AllReal fun pl : P × L => Wc1 pl.1 pl.2) :
    kerBranch x W1 b1 W2 b2 Wc1 bc1 Wc2 bc2 = refBranch x W1 b1 W2 b2 Wc1 bc1 Wc2 bc2 := by
  obtain ⟨x', rfl⟩ := hx.exists_real
  obtain ⟨b1', rfl⟩ := hb1.exists_real
  obtain ⟨b2', rfl⟩ := hb2.exists_real
  obtain ⟨W1', hW1'⟩ := hW1.exists_real
  obtain ⟨W2', hW2'⟩ := hW2.exists_real
  obtain ⟨Wc1', hWc1'⟩ := hWc1.exists_real
  have eW1 : W1 = fun k j => ((W1' (k, j) : ℝ) : EReal) := funext fun k => funext fun j => congrFun hW1' (k, j)
  have eW2 : W2 = fun j p => ((W2' (j, p) : ℝ) : EReal) := funext fun j => funext fun p => congrFun hW2' (j, p)
  have eWc1 : Wc1 = fun p l => ((Wc1' (p, l) : ℝ) : EReal) := funext fun p => funext fun l => congrFun hWc1' (p, l)
  subst eW1 eW2 eWc1
  unfold kerBranch refBranch
  refine congrArg (· + bc2) (Finset.sum_congr rfl fun l _ => ?_)
  simp only [hid_coe]
  rw [fold_layers]

end Cert.Spec

end
-- ==== Proof.Model.lean ====
/-
  The model on whole arrays: three branches sharing one classifier, and the maximum of the three logits.

  Each of the three inputs (4096 rows of 768 features) goes through its own two dense layers and then the shared
  classifier; the result at row `r` and class `c` is the largest of the three branches' logits. The reference computes
  a branch layer by layer; the kernel folds the second layer into the classifier's first. On finite inputs and weights
  the two agree (Spec: the folding law), hence so do the maxima.
-/
import proofs.«167844_g13408887898444_cont_sun_m_1282_25_alg».proof.Proof.Spec

noncomputable section

namespace Cert.Model

open Idealize.ShloMosaic Idealize.ShloMosaic.ValueIdx Cert.Spec

/-- A matrix of extended reals. -/
abbrev Mat (a b : Nat) : Type := (⟨2, ![a, b]⟩ : Shape).Idx → EReal
/-- A vector of extended reals. -/
abbrev Vect (a : Nat) : Type := (⟨1, ![a]⟩ : Shape).Idx → EReal

/-- One branch's logit at row `r`, class `c`, layer by layer. -/
def refLogit (x : Mat 4096 768) (W1 : Mat 768 512) (b1 : Vect 512) (W2 : Mat 512 256) (b2 : Vect 256) (Wc1 : Mat 256 128)
    (bc1 : Vect 128) (Wc2 : Mat 128 2) (bc2 : Vect 2) (r : Fin 4096) (c : Fin 2) : EReal :=
  refBranch (fun k : Fin 768 => x (ix2 r k)) (fun (k : Fin 768) (j : Fin 512) => W1 (ix2 k j)) (fun j : Fin 512 => b1 (ix1 j))
    (fun (j : Fin 512) (p : Fin 256) => W2 (ix2 j p)) (fun p : Fin 256 => b2 (ix1 p)) (fun (p : Fin 256) (l : Fin 128) => Wc1 (ix2 p l))
    (fun l : Fin 128 => bc1 (ix1 l)) (fun l : Fin 128 => Wc2 (ix2 l c)) (bc2 (ix1 c))

/-- One branch's logit at row `r`, class `c`, with the second layer folded into the classifier. -/
def kerLogit (x : Mat 4096 768) (W1 : Mat 768 512) (b1 : Vect 512) (W2 : Mat 512 256) (b2 : Vect 256) (Wc1 : Mat 256 128)
    (bc1 : Vect 128) (Wc2 : Mat 128 2) (bc2 : Vect 2) (r : Fin 4096) (c : Fin 2) : EReal :=
  kerBranch (fun k : Fin 768 => x (ix2 r k)) (fun (k : Fin 768) (j : Fin 512) => W1 (ix2 k j)) (fun j : Fin 512 => b1 (ix1 j))
    (fun (j : Fin 512) (p : Fin 256) => W2 (ix2 j p)) (fun p : Fin 256 => b2 (ix1 p)) (fun (p : Fin 256) (l : Fin 128) => Wc1 (ix2 p l))
    (fun l : Fin 128 => bc1 (ix1 l)) (fun l : Fin 128 => Wc2 (ix2 l c)) (bc2 (ix1 c))

/-- On finite operands of the first two layers and a finite first classifier matrix the two forms of a logit agree. -/
theorem kerLogit_eq_refLogit (x : Mat 4096 768) (W1 : Mat 768 512) (b1 : Vect 512) (W2 : Mat 512 256) (b2 : Vect 256) (Wc1 : Mat 256 128)
    (bc1 : Vect 128) (Wc2 : Mat 128 2) (bc2 : Vect 2) (hx : AllReal x) (hW1 : AllReal W1) (hb1 : AllReal b1) (hW2 : AllReal W2)
    (hb2 : AllReal b2) (hWc1 : AllReal Wc1) (r : Fin 4096) (c : Fin 2) :
    kerLogit x W1 b1 W2 b2 Wc1 bc1 Wc2 bc2 r c = refLogit x W1 b1 W2 b2 Wc1 bc1 Wc2 bc2 r c :=
  kerBranch_eq_refBranch _ _ _ _ _ _ _ _ _ (fun k => hx (ix2 r k)) (fun kj => hW1 (ix2 kj.1 kj.2)) (fun j => hb1 (ix1 j))
    (fun jp => hW2 (ix2 jp.1 jp.2)) (fun p => hb2 (ix1 p)) (fun pl => hWc1 (ix2 pl.1 pl.2))

/-- The reference's result: the largest of the three branches' logits (inputs in the program's argument order:
    the three inputs; per branch first weights, first bias, second weights, second bias; then the classifier). -/
def refOut (a0 a1 a2 : Mat 4096 768) (a3 : Mat 768 512) (a4 : Vect 512) (a5 : Mat 512 256) (a6 : Vect 256)
    (a7 : Mat 768 512) (a8 : Vect 512) (a9 : Mat 512 256) (a10 : Vect 256) (a11 : Mat 768 512) (a12 : Vect 512) (a13 : Mat 512 256)
    (a14 : Vect 256) (a15 : Mat 256 128) (a16 : Vect 128) (a17 : Mat 128 2) (a18 : Vect 2) (r : Fin 4096) (c : Fin 2) : EReal :=
  max (max (refLogit a0 a3 a4 a5 a6 a15 a16 a17 a18 r c) (refLogit a1 a7 a8 a9 a10 a15 a16 a17 a18 r c))
    (refLogit a2 a11 a12 a13 a14 a15 a16 a17 a18 r c)

/-- The kernel's result: the same maximum over the folded form of each branch. -/
def kerOut (a0 a1 a2 : Mat 4096 768) (a3 : Mat 768 512) (a4 : Vect 512) (a5 : Mat 512 256) (a6 : Vect 256)
    (a7 : Mat 768 512) (a8 : Vect 512) (a9 : Mat 512 256) (a10 : Vect 256) (a11 : Mat 768 512) (a12 : Vect 512) (a13 : Mat 512 256)
    (a14 : Vect 256) (a15 : Mat 256 128) (a16 : Vect 128) (a17 : Mat 128 2) (a18 : Vect 2) (r : Fin 4096) (c : Fin 2) : EReal :=
  max (max (kerLogit a0 a3 a4 a5 a6 a15 a16 a17 a18 r c) (kerLogit a1 a7 a8 a9 a10 a15 a16 a17 a18 r c))
    (kerLogit a2 a11 a12 a13 a14 a15 a16 a17 a18 r c)

/-- On finite arrays the kernel's result is the reference's. -/
theorem kerOut_eq_refOut (a0 a1 a2 : Mat 4096 768) (a3 : Mat 768 512) (a4 : Vect 512) (a5 : Mat 512 256) (a6 : Vect 256)
    (a7 : Mat 768 512) (a8 : Vect 512) (a9 : Mat 512 256) (a10 : Vect 256) (a11 : Mat 768 512) (a12 : Vect 512) (a13 : Mat 512 256)
    (a14 : Vect 256) (a15 : Mat 256 128) (a16 : Vect 128) (a17 : Mat 128 2) (a18 : Vect 2)
    (h0 : AllReal a0) (h1 : AllReal a1) (h2 : AllReal a2) (h3 : AllReal a3) (h4 : AllReal a4) (h5 : AllReal a5) (h6 : AllReal a6)
    (h7 : AllReal a7) (h8 : AllReal a8) (h9 : AllReal a9) (h10 : AllReal a10) (h11 : AllReal a11) (h12 : AllReal a12)
    (h13 : AllReal a13) (h14 : AllReal a14) (h15 : AllReal a15) (r : Fin 4096) (c : Fin 2) :
    kerOut a0 a1 a2 a3 a4 a5 a6 a7 a8 a9 a10 a11 a12 a13 a14 a15 a16 a17 a18 r c
      = refOut a0 a1 a2 a3 a4 a5 a6 a7 a8 a9 a10 a11 a12 a13 a14 a15 a16 a17 a18 r c := by
  unfold kerOut refOut
  rw [kerLogit_eq_refLogit a0 a3 a4 a5 a6 a15 a16 a17 a18 h0 h3 h4 h5 h6 h15,
    kerLogit_eq_refLogit a1 a7 a8 a9 a10 a15 a16 a17 a18 h1 h7 h8 h9 h10 h15,
    kerLogit_eq_refLogit a2 a11 a12 a13 a14 a15 a16 a17 a18 h2 h11 h12 h13 h14 h15]

end Cert.Model

end
-- ==== Proof.KernelValue.lean ====
/-
  The kernel's result array, as one function of the argument arrays.

  After point `t` the output's staging buffer holds, at block row `y` and class `cc`, the maximum of the three branches'
  logits in their folded form, at the global row `1024·t + y`: the input blocks are the argument arrays' row blocks, the
  weight and bias blocks are the whole arrays (the biases through a host reshape to a row), and the scratch slabs hold
  the folded weights and biases. The four blocks tile the result array.
-/
import proofs.«167844_g13408887898444_cont_sun_m_1282_25_alg».proof.Proof.PointVal
import proofs.«167844_g13408887898444_cont_sun_m_1282_25_alg».proof.Proof.BlockValue
import proofs.«167844_g13408887898444_cont_sun_m_1282_25_alg».proof.Proof.ScratchIdx
import proofs.«167844_g13408887898444_cont_sun_m_1282_25_alg».proof.Proof.Blocks
import proofs.«167844_g13408887898444_cont_sun_m_1282_25_alg».proof.Proof.Final
import proofs.«167844_g13408887898444_cont_sun_m_1282_25_alg».proof.Proof.Model
import proofs.«167844_g13408887898444_cont_sun_m_1282_25_alg».proof.Proof.Gen.KernelIdeal.Value

set_option maxRecDepth 16384

noncomputable section

namespace Cert.KernelIdeal.KValue

open Idealize.ShloMosaic Idealize.ShloMosaic.ValueIdx Idealize.ShloMosaic.TcCoe Idealize.SL.Sem Cert.KernelIdeal Cert.KernelIdeal.Gen
open Cert.KernelIdeal.Pieces Cert.KernelIdeal.Pay Cert.KernelIdeal.PointVal Cert.KernelIdeal.BlockValue Cert.KernelIdeal.ScratchIdx Cert.KernelIdeal.Blk

variable (m : (ℓ : Loc nD τ sig) → Buf (Elt Ideal) ℓ) (ρ : Dev nD → PrngReg)

/-- The kernel's value at row `r`, class `cc`, from core `c`'s argument arrays. -/
def result (c : Dev nD) (r : Fin 4096) (cc : Fin 2) : EReal :=
  Cert.Model.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) r cc

/-- Slab `i` of the folded weights, read through its box: `W2ᵢ · Wc1`. -/
theorem slabW0 (x6 x7 x8 : Vec Ideal S512x256 .f32) (x9 : Vec Ideal S256x128 .f32) (j : Fin 512) (l : Fin 128) :
    View.ld (foldW x6 x7 x8 x9) slab0 (ix3 (0 : Fin 1) j l) = ∑ p : Fin 256, x6 (ix2 j p) * x9 (ix2 p l) :=
  (ld_slab0 _ j l).trans (foldW_apply0 x6 x7 x8 x9 j l)
theorem slabW1 (x6 x7 x8 : Vec Ideal S512x256 .f32) (x9 : Vec Ideal S256x128 .f32) (j : Fin 512) (l : Fin 128) :
    View.ld (foldW x6 x7 x8 x9) slab1 (ix3 (0 : Fin 1) j l) = ∑ p : Fin 256, x7 (ix2 j p) * x9 (ix2 p l) :=
  (ld_slab1 _ j l).trans (foldW_apply1 x6 x7 x8 x9 j l)
theorem slabW2 (x6 x7 x8 : Vec Ideal S512x256 .f32) (x9 : Vec Ideal S256x128 .f32) (j : Fin 512) (l : Fin 128) :
    View.ld (foldW x6 x7 x8 x9) slab2 (ix3 (0 : Fin 1) j l) = ∑ p : Fin 256, x8 (ix2 j p) * x9 (ix2 p l) :=
  (ld_slab2 _ j l).trans (foldW_apply2 x6 x7 x8 x9 j l)

/-- Row `i` of the folded biases, read through its box: `b2ᵢ · Wc1 + bc1`. -/
theorem browB0 (x9 : Vec Ideal S256x128 .f32) (x14 x15 x16 : Vec Ideal S1x256 .f32) (x17 : Vec Ideal S1x128 .f32) (l : Fin 128) :
    View.ld (foldB x9 x14 x15 x16 x17) brow0 (ix2 (0 : Fin 1) l)
      = ∑ p : Fin 256, x14 (ix2 (0 : Fin 1) p) * x9 (ix2 p l) + x17 (ix2 (0 : Fin 1) l) :=
  (ld_brow0 _ l).trans (foldB_apply0 x9 x14 x15 x16 x17 l)
theorem browB1 (x9 : Vec Ideal S256x128 .f32) (x14 x15 x16 : Vec Ideal S1x256 .f32) (x17 : Vec Ideal S1x128 .f32) (l : Fin 128) :
    View.ld (foldB x9 x14 x15 x16 x17) brow1 (ix2 (0 : Fin 1) l)
      = ∑ p : Fin 256, x15 (ix2 (0 : Fin 1) p) * x9 (ix2 p l) + x17 (ix2 (0 : Fin 1) l) :=
  (ld_brow1 _ l).trans (foldB_apply1 x9 x14 x15 x16 x17 l)
theorem browB2 (x9 : Vec Ideal S256x128 .f32) (x14 x15 x16 : Vec Ideal S1x256 .f32) (x17 : Vec Ideal S1x128 .f32) (l : Fin 128) :
    View.ld (foldB x9 x14 x15 x16 x17) brow2 (ix2 (0 : Fin 1) l)
      = ∑ p : Fin 256, x16 (ix2 (0 : Fin 1) p) * x9 (ix2 p l) + x17 (ix2 (0 : Fin 1) l) :=
  (ld_brow2 _ l).trans (foldB_apply2 x9 x14 x15 x16 x17 l)

/-- What point `t` leaves at block row `y`, class `cc`, is the model's folded form at the global row. -/
theorem point_value (c : Dev nD) (t : Fin cfg0.N) (y : Fin 1024) (cc : Fin 2) :
    ((outsAt0 m c t.val t.isLt).1 : Vec Ideal S1024x2 .f32) (ix2 y cc) = result m c (row t y) cc := by
  rw [out_eq m c t, outBlock_apply]
  unfold result Cert.Model.kerOut Cert.Model.kerLogit Cert.Spec.kerBranch Cert.Spec.hid branch
  simp only [scrW, scrC, scrB, slabW0, slabW1, slabW2, browB0, browB1, browB2, storeWc2_apply, x0_blk, x1_blk, x2_blk, w3_blk, w4_blk, w5_blk, w6_blk, w7_blk, w8_blk, w9_blk,
    w10_blk, w11_blk, w12_blk, w13_blk, w14_blk, w15_blk, w16_blk, w17_blk, w18_blk]

/-- So the result array ends at that function of the arguments. -/
theorem final (c : Dev nD) : (dats m 0 c).arrAt 19 cfg0.N = fun i : S4096x2.Idx => result m c (i 0) (i 1) :=
  final_of_blocks m c (result m c) (point_value m c)

/-- The run, read: the result array at the model's folded form of the argument arrays, the arguments unchanged. -/
theorem run : θ_run defs (onTc (τ := τ) (main (F := Ideal))) ⟨m, fun _ => 0, ρ⟩ fun r => ∀ c : Dev nD,
      r.2.mem ((c : Thread nD τ).loc main_v8) = (fun i : S4096x2.Idx => result m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final m c), (h c).2⟩) (Cert.KernelIdeal.Value.run_blocks m ρ)

end Cert.KernelIdeal.KValue

end
-- ==== Proof.RefValue.lean ====
/-
  The reference's value at row `r` and class `c` is the model's `refOut`.

  The reference program computes each branch layer by layer (a product with a weight matrix, a bias added along the
  rows, a maximum with zero), makes each branch's logits a slab of extent one along a new middle axis, joins the three
  slabs along that axis and takes the maximum over it starting from −∞. Read at an index: the maximum from −∞ over the
  three coordinates of the middle axis is the largest of the three slabs' entries; slab `k` of the joined array at
  (r, k, c) is branch `k`'s logit at (r, c); and a branch's logit, read layer by layer, is `refLogit`. The three
  branches are one and the same composition of operations applied to different arrays, so the reading is done once.
-/
import proofs.«167844_g13408887898444_cont_sun_m_1282_25_alg».proof.Proof.Gen.ReferenceIdeal.Read
import proofs.«167844_g13408887898444_cont_sun_m_1282_25_alg».proof.Proof.Model

noncomputable section

namespace Cert.ReferenceIdeal.RefValue

open Cert.ReferenceIdeal Cert.ReferenceIdeal.Gen Cert.ReferenceIdeal.Read Idealize.ShloMosaic Idealize.ShloMosaic.ValueIdx

-- An array of the given shape at the ideal instance.
set_option quotPrecheck false in
local notation "Arr[" s "]" => (⟨s, .f32⟩ : BufTy).Contents (Elt Ideal)

/-! ### The maximum over the joined axis -/

theorem reduces_mid : S4096x3x2.Reduces [1] S4096x2 := by decide

/-- The reduced index (r, c) with coordinate `k` put back on the middle axis is (r, k, c). -/
theorem lift_mid (h : S4096x3x2.Reduces [1] S4096x2) (r : Fin 4096) (c : Fin 2) (k : Fin (S4096x3x2.size 1)) :
    h.lift (ix2 r c) k = ix3 r (⟨k.val, k.isLt⟩ : Fin 3) c := by
  funext d; apply Fin.ext
  fin_cases d <;> rfl

/-- A fold of the maximum over three coordinates, from an element below everything. -/
theorem fold_max3 (b : EReal) (hb : ∀ y : EReal, max b y = y) (f : Fin 3 → EReal) :
    (Finset.univ : Finset (Fin 3)).fold max b f = max (max (f 0) (f 1)) (f 2) := by
  rw [show (Finset.univ : Finset (Fin 3)) = insert 0 (insert 1 {2}) from by decide]
  rw [Finset.fold_insert (by decide), Finset.fold_insert (by decide), Finset.fold_singleton, max_comm (f 2) b, hb]
  exact (max_assoc _ _ _).symm

/-- −∞ is below everything. -/
theorem negInf_max (y : Ideal .f32) : max (Ideal.ofBits .f32 0xFF800000#32) y = y := by
  simp [Ideal.ofBits, Ideal.ieee]

/-- Slab `k` of three slabs of extent one joined along the middle axis, at (r, k, c), is that slab at (r, 0, c). -/
theorem joined_apply (y0 y1 y2 : Arr[S4096x1x2]) (hc : Shape.Concatenates [S4096x1x2, S4096x1x2, S4096x1x2] S4096x3x2 1)
    (r : Fin 4096) (c : Fin 2) :
    concatenate S4096x3x2 1 [⟨S4096x1x2, y0⟩, ⟨S4096x1x2, y1⟩, ⟨S4096x1x2, y2⟩] hc (ix3 r (0 : Fin 3) c) = y0 (ix3 r (0 : Fin 1) c)
    ∧ concatenate S4096x3x2 1 [⟨S4096x1x2, y0⟩, ⟨S4096x1x2, y1⟩, ⟨S4096x1x2, y2⟩] hc (ix3 r (1 : Fin 3) c) = y1 (ix3 r (0 : Fin 1) c)
    ∧ concatenate S4096x3x2 1 [⟨S4096x1x2, y0⟩, ⟨S4096x1x2, y1⟩, ⟨S4096x1x2, y2⟩] hc (ix3 r (2 : Fin 3) c) = y2 (ix3 r (0 : Fin 1) c) := by
  have off : ∀ (k : Fin 3) (b : Fin S4096x1x2.rank), b.cast (rfl : S4096x1x2.rank = S4096x3x2.rank) ≠ (1 : Fin S4096x3x2.rank) →
      ((ix3 r (0 : Fin 1) c : S4096x1x2.Idx) b).val
        = ((ix3 r k c : S4096x3x2.Idx) (b.cast (rfl : S4096x1x2.rank = S4096x3x2.rank))).val := by
    intro k b hb; fin_cases b
    · rfl
    · exact absurd rfl hb
    · rfl
  refine ⟨?_, ?_, ?_⟩
  · exact concatenate_apply_piece (1 : Fin S4096x3x2.rank) [⟨S4096x1x2, y0⟩, ⟨S4096x1x2, y1⟩, ⟨S4096x1x2, y2⟩] hc _ 0
      (by decide : 0 < 3) S4096x1x2 y0 rfl rfl 0 rfl (ix3 r (0 : Fin 1) c) (off 0) rfl
  · exact concatenate_apply_piece (1 : Fin S4096x3x2.rank) [⟨S4096x1x2, y0⟩, ⟨S4096x1x2, y1⟩, ⟨S4096x1x2, y2⟩] hc _ 1
      (by decide : 1 < 3) S4096x1x2 y1 rfl rfl 1 rfl (ix3 r (0 : Fin 1) c) (off 1) rfl
  · exact concatenate_apply_piece (1 : Fin S4096x3x2.rank) [⟨S4096x1x2, y0⟩, ⟨S4096x1x2, y1⟩, ⟨S4096x1x2, y2⟩] hc _ 2
      (by decide : 2 < 3) S4096x1x2 y2 rfl rfl 2 rfl (ix3 r (0 : Fin 1) c) (off 2) rfl

/-- The maximum from −∞ over the middle axis of three joined slabs, at (r, c): the largest of the slabs' entries there. -/
theorem max_of_joined (y0 y1 y2 : Arr[S4096x1x2]) (hc : Shape.Concatenates [S4096x1x2, S4096x1x2, S4096x1x2] S4096x3x2 1)
    (h' : S4096x3x2.ReducesTo [1] S4096x2) (hu : 0 < S_.numel) (r : Fin 4096) (c : Fin 2) :
    Host.reduce FloatOps.maximumf (concatenate S4096x3x2 1 [⟨S4096x1x2, y0⟩, ⟨S4096x1x2, y1⟩, ⟨S4096x1x2, y2⟩] hc : Arr[S4096x3x2])
        (constant (F := Ideal) S_ .f32 0xFF800000#32) h' hu (ix2 r c)
      = max (max (y0 (ix3 r (0 : Fin 1) c)) (y1 (ix3 r (0 : Fin 1) c))) (y2 (ix3 r (0 : Fin 1) c)) := by
  rw [Host.reduce_eq_fold_single FloatOps.maximumf _ _ h' reduces_mid hu]
  have e := fold_max3 (Ideal.ofBits .f32 0xFF800000#32) negInf_max
    (fun k : Fin 3 => concatenate S4096x3x2 1 [⟨S4096x1x2, y0⟩, ⟨S4096x1x2, y1⟩, ⟨S4096x1x2, y2⟩] hc (ix3 r k c))
  obtain ⟨e0, e1, e2⟩ := joined_apply y0 y1 y2 hc r c
  simp only [e0, e1, e2] at e
  refine Eq.trans ?_ e
  have hf : ((concatenate S4096x3x2 1 [⟨S4096x1x2, y0⟩, ⟨S4096x1x2, y1⟩, ⟨S4096x1x2, y2⟩] hc : S4096x3x2.Idx → EReal)
        ∘ reduces_mid.lift (ix2 r c))
      = fun k : Fin 3 => concatenate S4096x3x2 1 [⟨S4096x1x2, y0⟩, ⟨S4096x1x2, y1⟩, ⟨S4096x1x2, y2⟩] hc (ix3 r k c) :=
    funext fun k => congrArg _ (lift_mid reduces_mid r c k)
  exact congrArg (fun f => Finset.fold max (Ideal.ofBits .f32 0xFF800000#32) f (Finset.univ : Finset (Fin 3))) hf

/-! ### The operations' composed index functions at explicit indices -/

theorem lidx_v0 (r : Fin 4096) (j : Fin 512) (k : Fin 768) : lidx_main_v0 (ix2 r j) k = ix2 r k := by
  funext a; apply Fin.ext; fin_cases a <;> rfl
theorem ridx_v0 (r : Fin 4096) (j : Fin 512) (k : Fin 768) : ridx_main_v0 (ix2 r j) k = ix2 k j := by
  funext a; apply Fin.ext; fin_cases a <;> rfl
theorem bidx_v2 (r : Fin 4096) (j : Fin 512) : idx_main_v1 (idx_main_v2 (ix2 r j)) = ix1 j := by
  funext a; apply Fin.ext; fin_cases a; rfl
theorem lidx_v5 (r : Fin 4096) (p : Fin 256) (j : Fin 512) : lidx_main_v5 (ix2 r p) j = ix2 r j := by
  funext a; apply Fin.ext; fin_cases a <;> rfl
theorem ridx_v5 (r : Fin 4096) (p : Fin 256) (j : Fin 512) : ridx_main_v5 (ix2 r p) j = ix2 j p := by
  funext a; apply Fin.ext; fin_cases a <;> rfl
theorem bidx_v7 (r : Fin 4096) (p : Fin 256) : idx_main_v6 (idx_main_v7 (ix2 r p)) = ix1 p := by
  funext a; apply Fin.ext; fin_cases a; rfl
theorem lidx_v27 (r : Fin 4096) (l : Fin 128) (p : Fin 256) : lidx_main_v27 (ix2 r l) p = ix2 r p := by
  funext a; apply Fin.ext; fin_cases a <;> rfl
theorem ridx_v27 (r : Fin 4096) (l : Fin 128) (p : Fin 256) : ridx_main_v27 (ix2 r l) p = ix2 p l := by
  funext a; apply Fin.ext; fin_cases a <;> rfl
theorem bidx_v29 (r : Fin 4096) (l : Fin 128) : idx_main_v28 (idx_main_v29 (ix2 r l)) = ix1 l := by
  funext a; apply Fin.ext; fin_cases a; rfl
theorem lidx_v32 (r : Fin 4096) (c : Fin 2) (l : Fin 128) : lidx_main_v32 (ix2 r c) l = ix2 r l := by
  funext a; apply Fin.ext; fin_cases a <;> rfl
theorem ridx_v32 (r : Fin 4096) (c : Fin 2) (l : Fin 128) : ridx_main_v32 (ix2 r c) l = ix2 l c := by
  funext a; apply Fin.ext; fin_cases a <;> rfl
theorem bidx_v34 (r : Fin 4096) (c : Fin 2) : idx_main_v33 (idx_main_v34 (ix2 r c)) = ix1 c := by
  funext a; apply Fin.ext; fin_cases a; rfl
theorem idx_v54 (r : Fin 4096) (c : Fin 2) : idx_main_v54 (ix3 r (0 : Fin 1) c) = ix2 r c := by
  funext a; apply Fin.ext; fin_cases a <;> rfl
theorem idx_v55 (r : Fin 4096) (c : Fin 2) : idx_main_v55 (ix3 r (0 : Fin 1) c) = ix2 r c := by
  funext a; apply Fin.ext; fin_cases a <;> rfl
theorem idx_v56 (r : Fin 4096) (c : Fin 2) : idx_main_v56 (ix3 r (0 : Fin 1) c) = ix2 r c := by
  funext a; apply Fin.ext; fin_cases a <;> rfl

/-! ### One branch, layer by layer -/

/-- The first layer at (r, j): the product summed over the 768 features, the bias, the maximum with zero. -/
theorem first_layer (x : Arr[S4096x768]) (W1 : Arr[S768x512]) (b1 : Arr[S512]) (r : Fin 4096) (j : Fin 512) :
    val_main_v4 (F := Ideal) x W1 b1 (ix2 r j)
      = Cert.Spec.hid (fun k : Fin 768 => x (ix2 r k)) (fun (k : Fin 768) (j : Fin 512) => W1 (ix2 k j))
          (fun j : Fin 512 => b1 (ix1 j)) j := by
  rw [val_main_v4_apply, val_main_v3_apply, val_main_v0_apply, val_main_v2_apply, val_main_v1_apply, bidx_v2,
    val_main_call0_v0_apply, val_main_call0_cst_apply, Ideal.maximumf_def, Ideal.addf_def, Ideal.ofBits_def,
    Ideal.ofBits_zero_f32]
  unfold Cert.Spec.hid
  refine congrArg (fun s => max (s + b1 (ix1 j)) 0) (Finset.sum_congr rfl fun k _ => ?_)
  rw [lidx_v0, ridx_v0]

/-- The second layer at (r, p): the first layer's row times a column of the second weights, and the bias. -/
theorem second_layer (x : Arr[S4096x768]) (W1 : Arr[S768x512]) (b1 : Arr[S512]) (W2 : Arr[S512x256]) (b2 : Arr[S256])
    (r : Fin 4096) (p : Fin 256) :
    val_main_v8 (F := Ideal) x W1 b1 W2 b2 (ix2 r p)
      = ∑ j : Fin 512, Cert.Spec.hid (fun k : Fin 768 => x (ix2 r k)) (fun (k : Fin 768) (j : Fin 512) => W1 (ix2 k j))
          (fun j : Fin 512 => b1 (ix1 j)) j * W2 (ix2 j p) + b2 (ix1 p) := by
  rw [val_main_v8_apply, val_main_v5_apply, val_main_v7_apply, val_main_v6_apply, bidx_v7, Ideal.addf_def]
  refine congrArg (· + b2 (ix1 p)) (Finset.sum_congr rfl fun j _ => ?_)
  rw [lidx_v5, ridx_v5, first_layer]

/-- The classifier's hidden layer at (r, l): the second layer's row times a column of the classifier's first weights,
    the bias, the maximum with zero. -/
theorem cls_hidden (x : Arr[S4096x768]) (W1 : Arr[S768x512]) (b1 : Arr[S512]) (W2 : Arr[S512x256]) (b2 : Arr[S256])
    (Wc1 : Arr[S256x128]) (bc1 : Arr[S128]) (r : Fin 4096) (l : Fin 128) :
    val_main_v31 (F := Ideal) x W1 b1 W2 b2 Wc1 bc1 (ix2 r l)
      = max (∑ p : Fin 256, (∑ j : Fin 512, Cert.Spec.hid (fun k : Fin 768 => x (ix2 r k))
              (fun (k : Fin 768) (j : Fin 512) => W1 (ix2 k j)) (fun j : Fin 512 => b1 (ix1 j)) j * W2 (ix2 j p) + b2 (ix1 p))
            * Wc1 (ix2 p l) + bc1 (ix1 l)) 0 := by
  rw [val_main_v31_apply, val_main_v30_apply, val_main_v27_apply, val_main_v29_apply, val_main_v28_apply, bidx_v29,
    val_main_call3_v0_apply, val_main_call3_cst_apply, Ideal.maximumf_def, Ideal.addf_def, Ideal.ofBits_def,
    Ideal.ofBits_zero_f32]
  refine congrArg (fun s => max (s + bc1 (ix1 l)) 0) (Finset.sum_congr rfl fun p _ => ?_)
  rw [lidx_v27, ridx_v27, second_layer]

/-- The first branch's logit at (r, c) is the model's. -/
theorem logit0 (x : Arr[S4096x768]) (W1 : Arr[S768x512]) (b1 : Arr[S512]) (W2 : Arr[S512x256]) (b2 : Arr[S256])
    (Wc1 : Arr[S256x128]) (bc1 : Arr[S128]) (Wc2 : Arr[S128x2]) (bc2 : Arr[S2]) (r : Fin 4096) (c : Fin 2) :
    val_main_v35 (F := Ideal) x W1 b1 W2 b2 Wc1 bc1 Wc2 bc2 (ix2 r c) = Cert.Model.refLogit x W1 b1 W2 b2 Wc1 bc1 Wc2 bc2 r c := by
  rw [val_main_v35_apply, val_main_v32_apply, val_main_v34_apply, val_main_v33_apply, bidx_v34, Ideal.addf_def]
  unfold Cert.Model.refLogit Cert.Spec.refBranch
  refine congrArg (· + bc2 (ix1 c)) (Finset.sum_congr rfl fun l _ => ?_)
  rw [lidx_v32, ridx_v32, cls_hidden]

/-- The second branch is the same composition of operations on its own arrays. -/
theorem logit1 (x : Arr[S4096x768]) (W1 : Arr[S768x512]) (b1 : Arr[S512]) (W2 : Arr[S512x256]) (b2 : Arr[S256])
    (Wc1 : Arr[S256x128]) (bc1 : Arr[S128]) (Wc2 : Arr[S128x2]) (bc2 : Arr[S2]) (r : Fin 4096) (c : Fin 2) :
    val_main_v44 (F := Ideal) x W1 b1 W2 b2 Wc1 bc1 Wc2 bc2 (ix2 r c) = Cert.Model.refLogit x W1 b1 W2 b2 Wc1 bc1 Wc2 bc2 r c :=
  logit0 x W1 b1 W2 b2 Wc1 bc1 Wc2 bc2 r c

/-- So is the third. -/
theorem logit2 (x : Arr[S4096x768]) (W1 : Arr[S768x512]) (b1 : Arr[S512]) (W2 : Arr[S512x256]) (b2 : Arr[S256])
    (Wc1 : Arr[S256x128]) (bc1 : Arr[S128]) (Wc2 : Arr[S128x2]) (bc2 : Arr[S2]) (r : Fin 4096) (c : Fin 2) :
    val_main_v53 (F := Ideal) x W1 b1 W2 b2 Wc1 bc1 Wc2 bc2 (ix2 r c) = Cert.Model.refLogit x W1 b1 W2 b2 Wc1 bc1 Wc2 bc2 r c :=
  logit0 x W1 b1 W2 b2 Wc1 bc1 Wc2 bc2 r c

/-! ### The whole reference -/

/-- The reference's result at (r, c) is the largest of the three branches' logits there. -/
theorem val_eq_refOut (x0 x1 x2 : (⟨S4096x768, .f32⟩ : BufTy).Contents (Elt Ideal)) (x3 : (⟨S768x512, .f32⟩ : BufTy).Contents (Elt Ideal))
    (x4 : (⟨S512, .f32⟩ : BufTy).Contents (Elt Ideal)) (x5 : (⟨S512x256, .f32⟩ : BufTy).Contents (Elt Ideal))
    (x6 : (⟨S256, .f32⟩ : BufTy).Contents (Elt Ideal)) (x7 : (⟨S768x512, .f32⟩ : BufTy).Contents (Elt Ideal))
    (x8 : (⟨S512, .f32⟩ : BufTy).Contents (Elt Ideal)) (x9 : (⟨S512x256, .f32⟩ : BufTy).Contents (Elt Ideal))
    (x10 : (⟨S256, .f32⟩ : BufTy).Contents (Elt Ideal)) (x11 : (⟨S768x512, .f32⟩ : BufTy).Contents (Elt Ideal))
    (x12 : (⟨S512, .f32⟩ : BufTy).Contents (Elt Ideal)) (x13 : (⟨S512x256, .f32⟩ : BufTy).Contents (Elt Ideal))
    (x14 : (⟨S256, .f32⟩ : BufTy).Contents (Elt Ideal)) (x15 : (⟨S256x128, .f32⟩ : BufTy).Contents (Elt Ideal))
    (x16 : (⟨S128, .f32⟩ : BufTy).Contents (Elt Ideal)) (x17 : (⟨S128x2, .f32⟩ : BufTy).Contents (Elt Ideal))
    (x18 : (⟨S2, .f32⟩ : BufTy).Contents (Elt Ideal)) (r : Fin 4096) (c : Fin 2) :
    val_main_v58 (F := Ideal) x0 x1 x2 x3 x4 x5 x6 x7 x8 x9 x10 x11 x12 x13 x14 x15 x16 x17 x18 (ix2 r c)
      = Cert.Model.refOut x0 x1 x2 x3 x4 x5 x6 x7 x8 x9 x10 x11 x12 x13 x14 x15 x16 x17 x18 r c := by
  unfold val_main_v58 val_main_v57 val_main_cst
  rw [max_of_joined, val_main_v54_apply, val_main_v55_apply, val_main_v56_apply, idx_v54, idx_v55, idx_v56, logit0, logit1,
    logit2]
  rfl

end Cert.ReferenceIdeal.RefValue

end
-- ==== Proof.Finite.lean ====
/-
  From the precondition to "every entry of every input is a real number".

  The precondition computes, for each of the nineteen float inputs `a`, the conjunction over all entries of
  `|a i| < +∞` (an all-axes reduction by `and` of the elementwise comparison against the pattern of +∞, started
  at 1), and then the conjunction of the nineteen one-bit results. Over the extended reals `|x| = max x (-x)`, and
  `max x (-x) < ⊤` excludes both `x = ⊤` and `x = ⊥` (at either, `max x (-x) = ⊤`). So the precondition being
  1 says each entry is neither infinity.
-/
import proofs.«167844_g13408887898444_cont_sun_m_1282_25_alg».proof.Proof.Gen.Pre_finite_inputs
import proofs.«167844_g13408887898444_cont_sun_m_1282_25_alg».proof.Proof.Spec
import Idealize.ShloMosaic.Lib.ReduceAll

noncomputable section

namespace Cert.Finite

open Idealize.ShloMosaic Cert.Pre_finite_inputs

/-- The scalar shape has exactly one index. -/
instance subsingleton_scalar_idx : Subsingleton S_.Idx := ⟨fun a b => funext fun d => d.elim0⟩

/-- The pattern with all exponent bits set, sign and significand clear, denotes +∞. -/
theorem inf_pattern : Ideal.ofBits .f32 0x7F800000#32 = (⊤ : EReal) := by
  simp [Ideal.ofBits, Ideal.ieee]

/-- An extended real whose absolute value `max x (-x)` is below +∞ is neither infinity. -/
theorem real_of_abs_lt_inf (x : EReal) (h : Ideal.cmp .olt (max x (-x)) (⊤ : EReal) = 1#1) : x ≠ ⊤ ∧ x ≠ ⊥ := by
  induction x using EReal.rec with
  | bot => simp [Ideal.cmp] at h
  | top => simp [Ideal.cmp] at h
  | coe r => exact ⟨EReal.coe_ne_top r, EReal.coe_ne_bot r⟩

/-- For any shape: if the conjunction over all entries of `|a i| < +∞` is 1, every entry of `a` is real. -/
theorem allReal_of_all {S : Shape} (a : FVec Ideal S .f32) (hb : S_.BroadcastsInDim S (![] : Fin 0 → Fin S.rank))
    {axes : List (Fin S.rank)} (hr : S.ReducesTo axes S_) (hu : 0 < S_.numel) (init : IVec S_ 1) (j : S_.Idx)
    (e : Host.reduce IntOp.andi (cmpf .olt (Host.absf a) (broadcastInDim S ![] hb (constant S_ .f32 0x7F800000#32))) init hr hu j
      = 1#1) :
    Cert.Spec.AllReal a := by
  intro i
  -- the entry of the compared array at `i` is 1: it is `max (a i) (-(a i)) < +∞` by unfolding
  have hi := Host.reduce_andi_all _ init hr hu j e i
  apply real_of_abs_lt_inf
  rw [← inf_pattern]
  exact hi

/-- The precondition at the one index of its rank-0 result is a left-nested conjunction of nineteen all-entries
    tests; each gives the finiteness of one input. -/
theorem allReal_of_pre (a0 a1 a2 : FVec Ideal S4096x768 .f32) (a3 : FVec Ideal S768x512 .f32) (a4 : FVec Ideal S512 .f32) (a5 : FVec Ideal S512x256 .f32) (a6 : FVec Ideal S256 .f32) (a7 : FVec Ideal S768x512 .f32) (a8 : FVec Ideal S512 .f32) (a9 : FVec Ideal S512x256 .f32) (a10 : FVec Ideal S256 .f32) (a11 : FVec Ideal S768x512 .f32) (a12 : FVec Ideal S512 .f32) (a13 : FVec Ideal S512x256 .f32) (a14 : FVec Ideal S256 .f32) (a15 : FVec Ideal S256x128 .f32) (a16 : FVec Ideal S128 .f32) (a17 : FVec Ideal S128x2 .f32) (a18 : FVec Ideal S2 .f32)
    (h : Cert.Pre_finite_inputs.fn (F := Ideal) a0 a1 a2 a3 a4 a5 a6 a7 a8 a9 a10 a11 a12 a13 a14 a15 a16 a17 a18 = fun _ => 1#1) :
    Cert.Spec.AllReal a0 ∧ Cert.Spec.AllReal a1 ∧ Cert.Spec.AllReal a2 ∧ Cert.Spec.AllReal a3 ∧ Cert.Spec.AllReal a4 ∧ Cert.Spec.AllReal a5 ∧ Cert.Spec.AllReal a6 ∧ Cert.Spec.AllReal a7 ∧ Cert.Spec.AllReal a8 ∧ Cert.Spec.AllReal a9 ∧ Cert.Spec.AllReal a10 ∧ Cert.Spec.AllReal a11 ∧ Cert.Spec.AllReal a12 ∧ Cert.Spec.AllReal a13 ∧ Cert.Spec.AllReal a14 ∧ Cert.Spec.AllReal a15 ∧ Cert.Spec.AllReal a16 ∧ Cert.Spec.AllReal a17 ∧ Cert.Spec.AllReal a18 := by
  have h0 := congrFun h ValueIdx.ix0
  dsimp only [fn, fn_part1, fn_part2, fn_part3, fn_part4, fn_part5, andi] at h0
  simp only [IntOp.andi_eq_one] at h0
  obtain ⟨⟨⟨⟨⟨⟨⟨⟨⟨⟨⟨⟨⟨⟨⟨⟨⟨⟨r0, r1⟩, r2⟩, r3⟩, r4⟩, r5⟩, r6⟩, r7⟩, r8⟩, r9⟩, r10⟩, r11⟩, r12⟩, r13⟩, r14⟩, r15⟩, r16⟩, r17⟩, r18⟩ := h0
  exact ⟨allReal_of_all _ _ _ _ _ _ r0,
    allReal_of_all _ _ _ _ _ _ r1,
    allReal_of_all _ _ _ _ _ _ r2,
    allReal_of_all _ _ _ _ _ _ r3,
    allReal_of_all _ _ _ _ _ _ r4,
    allReal_of_all _ _ _ _ _ _ r5,
    allReal_of_all _ _ _ _ _ _ r6,
    allReal_of_all _ _ _ _ _ _ r7,
    allReal_of_all _ _ _ _ _ _ r8,
    allReal_of_all _ _ _ _ _ _ r9,
    allReal_of_all _ _ _ _ _ _ r10,
    allReal_of_all _ _ _ _ _ _ r11,
    allReal_of_all _ _ _ _ _ _ r12,
    allReal_of_all _ _ _ _ _ _ r13,
    allReal_of_all _ _ _ _ _ _ r14,
    allReal_of_all _ _ _ _ _ _ r15,
    allReal_of_all _ _ _ _ _ _ r16,
    allReal_of_all _ _ _ _ _ _ r17,
    allReal_of_all _ _ _ _ _ _ r18⟩

end Cert.Finite

end
-- ==== Proof.lean ====
/-
  The certificate: a fused three-branch classifier kernel against its layer-by-layer reference.

  The model takes three inputs (4096 rows of 768 features each) through per-branch dense layers 768 → 512 (rectified)
  and 512 → 256, then a shared classifier 256 → 128 (rectified) → 2, and returns for each row and class the largest of the
  three branches' logits. The reference computes every layer. The kernel, one grid point per 1024 rows, folds each
  branch's second layer into the classifier's first — there is no nonlinearity between them, so
      (h · W2 + b2) · Wc1 + bc1 = h · (W2 · Wc1) + (b2 · Wc1 + bc1)
  — storing the folded matrices and biases in scratch buffers at its first grid point and reusing them at the others.
  Over the extended reals the law needs its operands finite (distributivity fails at the infinities): that is what
  the precondition gives. A change of float format is the identity at the ideal instance, a matrix product into a zero
  accumulator and the host's dot product are the same plain sum, and the maximum of three against the host's
  max-reduce from minus infinity is the same maximum.

  The three frames: the two kernels' from their generated frame certificates, the reference's from its generated run.
  The ledger of the ideal pass is empty.
-/
import proofs.«167844_g13408887898444_cont_sun_m_1282_25_alg».proof.Defs
import proofs.«167844_g13408887898444_cont_sun_m_1282_25_alg».proof.Proof.Gen.Kernel
import proofs.«167844_g13408887898444_cont_sun_m_1282_25_alg».proof.Proof.Gen.Kernel.Skeleton
import proofs.«167844_g13408887898444_cont_sun_m_1282_25_alg».proof.Proof.Gen.Kernel.Launch
import proofs.«167844_g13408887898444_cont_sun_m_1282_25_alg».proof.Proof.Gen.Kernel.Points
import proofs.«167844_g13408887898444_cont_sun_m_1282_25_alg».proof.Proof.Gen.Kernel.Frame
import proofs.«167844_g13408887898444_cont_sun_m_1282_25_alg».proof.Proof.Gen.KernelIdeal
import proofs.«167844_g13408887898444_cont_sun_m_1282_25_alg».proof.Proof.Gen.KernelIdeal.Skeleton
import proofs.«167844_g13408887898444_cont_sun_m_1282_25_alg».proof.Proof.Gen.KernelIdeal.Launch
import proofs.«167844_g13408887898444_cont_sun_m_1282_25_alg».proof.Proof.Gen.KernelIdeal.Points
import proofs.«167844_g13408887898444_cont_sun_m_1282_25_alg».proof.Proof.Gen.KernelIdeal.Frame
import proofs.«167844_g13408887898444_cont_sun_m_1282_25_alg».proof.Proof.Gen.ReferenceIdeal
import proofs.«167844_g13408887898444_cont_sun_m_1282_25_alg».proof.Proof.Gen.Pre_finite_inputs
import proofs.«167844_g13408887898444_cont_sun_m_1282_25_alg».proof.Proof.Gen.KernelIdeal.Value
import proofs.«167844_g13408887898444_cont_sun_m_1282_25_alg».proof.Proof.Gen.ReferenceIdeal.Run
import proofs.«167844_g13408887898444_cont_sun_m_1282_25_alg».proof.Proof.Gen.ReferenceIdeal.Read
import proofs.«167844_g13408887898444_cont_sun_m_1282_25_alg».proof.Proof.KernelValue
import proofs.«167844_g13408887898444_cont_sun_m_1282_25_alg».proof.Proof.RefValue
import proofs.«167844_g13408887898444_cont_sun_m_1282_25_alg».proof.Proof.Finite
import proofs.«167844_g13408887898444_cont_sun_m_1282_25_alg».proof.Proof.Model
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the same function of the arguments: the kernel at the folded form,
    the reference at the layer-by-layer form, equal on finite arrays. -/
theorem algebraic : Cert.algebraic_KernelIdeal_ReferenceIdeal := by
  intro m ρ m' ρ' hpre hagree
  refine ⟨fun c => fun i : Cert.KernelIdeal.S4096x2.Idx => Cert.KernelIdeal.KValue.result m c (i 0) (i 1),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq]
  obtain ⟨h0, h1, h2, h3, h4, h5, h6, h7, h8, h9, h10, h11, h12, h13, h14, h15, -, -, -⟩ :=
    Cert.Finite.allReal_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (hpre c)
  funext i
  obtain ⟨r, cc, rfl⟩ : ∃ (r : Fin 4096) (cc : Fin 2), i = ix2 r cc := ⟨i 0, i 1, eq_ix2 i⟩
  rw [Cert.ReferenceIdeal.RefValue.val_eq_refOut]
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2.1,
    (hagree c).2.2.2.2.2.2.2.2.2.2.2.2.2.1, (hagree c).2.2.2.2.2.2.2.2.2.2.2.2.2.2.1, (hagree c).2.2.2.2.2.2.2.2.2.2.2.2.2.2.2.1,
    (hagree c).2.2.2.2.2.2.2.2.2.2.2.2.2.2.2.2.1, (hagree c).2.2.2.2.2.2.2.2.2.2.2.2.2.2.2.2.2.1,
    (hagree c).2.2.2.2.2.2.2.2.2.2.2.2.2.2.2.2.2.2]
  exact (Cert.Model.kerOut_eq_refOut _ _ _ _ _ _ _ _ _ _ _ _ _ _ _ _ _ _ _ h0 h1 h2 h3 h4 h5 h6 h7 h8 h9 h10 h11 h12 h13 h14 h15 r cc).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
